-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x1024x3 : Shape := ⟨3, ![64, 1024, 3]⟩
abbrev S64x1024x256 : Shape := ⟨3, ![64, 1024, 256]⟩
abbrev S256x256 : Shape := ⟨2, ![256, 256]⟩
abbrev S256 : Shape := ⟨1, ![256]⟩
abbrev S4x256 : Shape := ⟨2, ![4, 256]⟩
abbrev S_ : Shape := ⟨0, ![]⟩

class Facts : Prop where
  bcast_S_S64x1024x3 : S_.BroadcastsInDim S64x1024x3 (![] : Fin 0 → Fin S64x1024x3.rank)
  reducesTo_S64x1024x3_S_d0_1_2 : S64x1024x3.ReducesTo [0, 1, 2] S_
  h_S_ : 0 < S_.numel
  bcast_S_S64x1024x256 : S_.BroadcastsInDim S64x1024x256 (![] : Fin 0 → Fin S64x1024x256.rank)
  reducesTo_S64x1024x256_S_d0_1_2 : S64x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S64x1024 : S_.BroadcastsInDim S64x1024 (![] : Fin 0 → Fin S64x1024.rank)
  reducesTo_S64x1024_S_d0_1 : S64x1024.ReducesTo [0, 1] S_

variable [Facts]

def fn_part3 {F : FTy → Type} [FloatOps F] (main_v47 : IVec S_ 1) (main_v49 : IVec S64x1024 1) (main_c_19 : IVec S_ 1) : IVec S_ 1 :=
  let main_v50 : IVec S_ 1 := (fun x v => Host.reduce IntOp.andi x v reducesTo_S64x1024_S_d0_1 h_S_) main_v49 main_c_19
  let main_v51 : IVec S_ 1 := andi main_v47 main_v50
  main_v51

def fn_part2 {F : FTy → Type} [FloatOps F] (main_arg0 : IVec S64x1024 32) (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S64x1024 32 := broadcastInDim S64x1024 ![] bcast_S_S64x1024 main_c_16
  let main_v45 : IVec S64x1024 1 := cmpi .sge main_arg0 main_v44
  let main_c_17 : IVec S_ 1 := constantI S_ 1 1#1
  let main_v46 : IVec S_ 1 := (fun x v => Host.reduce IntOp.andi x v reducesTo_S64x1024_S_d0_1 h_S_) main_v45 main_c_17
  let main_v47 : IVec S_ 1 := andi main_v43 main_v46
  let main_c_18 : IVec S_ 32 := constantI S_ 32 1024#32
  let main_v48 : IVec S64x1024 32 := broadcastInDim S64x1024 ![] bcast_S_S64x1024 main_c_18
  let main_v49 : IVec S64x1024 1 := cmpi .slt main_arg0 main_v48
  let main_c_19 : IVec S_ 1 := constantI S_ 1 1#1
  fn_part3 (F := F) main_v47 main_v49 main_c_19

def fn_part1 {F : FTy → Type} [FloatOps F] (main_arg0 : IVec S64x1024 32) (main_arg5 : FVec F S256 .f32) (main_arg6 : FVec F S4x256 .f32) (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x256 .f32 := Host.absf main_arg6
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg8 main_arg9 main_v33

def fn {F : FTy → Type} [FloatOps F] (main_arg0 : IVec S64x1024 32) (main_arg1 : FVec F S64x1024x3 .f32) (main_arg2 : FVec F S64x1024x256 .f32) (main_arg3 : FVec F S64x1024x3 .f32) (main_arg4 : FVec F S256x256 .f32) (main_arg5 : FVec F S256 .f32) (main_arg6 : FVec F S4x256 .f32) (main_arg7 : FVec F S256 .f32) (main_arg8 : FVec F S256x256 .f32) (main_arg9 : FVec F S256 .f32) : IVec S_ 1 :=
  let main_v0 : FVec F S64x1024x3 .f32 := Host.absf main_arg1
  let main_cst : FVec F S_ .f32 := constant S_ .f32 0x7F800000#32
  let main_v1 : FVec F S64x1024x3 .f32 := broadcastInDim S64x1024x3 ![] bcast_S_S64x1024x3 main_cst
  let main_v2 : IVec S64x1024x3 1 := cmpf .olt main_v0 main_v1
  let main_c : IVec S_ 1 := constantI S_ 1 1#1
  let main_v3 : IVec S_ 1 := (fun x v => Host.reduce IntOp.andi x v reducesTo_S64x1024x3_S_d0_1_2 h_S_) main_v2 main_c
  let main_v4 : FVec F S64x1024x256 .f32 := Host.absf main_arg2
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S64x1024x3 .f32 := Host.absf main_arg3
  let main_cst_2 : FVec F S_ .f32 := constant S_ .f32 0x7F800000#32
  let main_v10 : FVec F S64x1024x3 .f32 := broadcastInDim S64x1024x3 ![] bcast_S_S64x1024x3 main_cst_2
  let main_v11 : IVec S64x1024x3 1 := cmpf .olt main_v9 main_v10
  let main_c_3 : IVec S_ 1 := constantI S_ 1 1#1
  let main_v12 : IVec S_ 1 := (fun x v => Host.reduce IntOp.andi x v reducesTo_S64x1024x3_S_d0_1_2 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg5 main_arg6 main_arg7 main_arg8 main_arg9 main_v13 main_v16
-- ==== Kernel.lean ====
abbrev S64x1024 : Shape := ⟨2, ![64, 1024]⟩
abbrev S64x1024x3 : Shape := ⟨3, ![64, 1024, 3]⟩
abbrev S64x1024x256 : Shape := ⟨3, ![64, 1024, 256]⟩
abbrev S256x256 : Shape := ⟨2, ![256, 256]⟩
abbrev S256 : Shape := ⟨1, ![256]⟩
abbrev S4x256 : Shape := ⟨2, ![4, 256]⟩
abbrev S_ : Shape := ⟨0, ![]⟩
abbrev S64 : Shape := ⟨1, ![64]⟩
abbrev S64x1 : Shape := ⟨2, ![64, 1]⟩
abbrev S64x1024x1 : Shape := ⟨3, ![64, 1024, 1]⟩
abbrev S64x1024x2 : Shape := ⟨3, ![64, 1024, 2]⟩
abbrev S64x1024x4 : Shape := ⟨3, ![64, 1024, 4]⟩
abbrev S1x256 : Shape := ⟨2, ![1, 256]⟩
abbrev S2x1024x1 : Shape := ⟨3, ![2, 1024, 1]⟩
abbrev S2x1024x4 : Shape := ⟨3, ![2, 1024, 4]⟩
abbrev S2x1024x256 : Shape := ⟨3, ![2, 1024, 256]⟩
abbrev S1x1024 : Shape := ⟨2, ![1, 1024]⟩
abbrev S1x1024x1 : Shape := ⟨3, ![1, 1024, 1]⟩
abbrev S1024x1 : Shape := ⟨2, ![1024, 1]⟩
abbrev S1024x1024 : Shape := ⟨2, ![1024, 1024]⟩
abbrev S1x1024x256 : Shape := ⟨3, ![1, 1024, 256]⟩
abbrev S1024x256 : Shape := ⟨2, ![1024, 256]⟩
abbrev S1x1024x4 : Shape := ⟨3, ![1, 1024, 4]⟩
abbrev S1024x4 : Shape := ⟨2, ![1024, 4]⟩

abbrev nBuf : Space → Nat
  | .hbm => 75
  | .vmem => 14
  | .smem => 0
  | _ => 0

abbrev bufTy : (tb : Table) → Fin (tcTables nBuf tb) → BufTy
  | .hbm, ⟨0, _⟩ => ⟨S64x1024, .i32⟩
  | .hbm, ⟨1, _⟩ => ⟨S64x1024x3, .f32⟩
  | .hbm, ⟨2, _⟩ => ⟨S64x1024x256, .f32⟩
  | .hbm, ⟨3, _⟩ => ⟨S64x1024x3, .f32⟩
  | .hbm, ⟨4, _⟩ => ⟨S256x256, .f32⟩
  | .hbm, ⟨5, _⟩ => ⟨S256, .f32⟩
  | .hbm, ⟨6, _⟩ => ⟨S4x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64x1024, .i32⟩
  | .hbm, ⟨14, _⟩ => ⟨S64x1024, .i32⟩
  | .hbm, ⟨15, _⟩ => ⟨S_, .i32⟩
  | .hbm, ⟨16, _⟩ => ⟨S64x1024, .i32⟩
  | .hbm, ⟨17, _⟩ => ⟨S64x1024, .i32⟩
  | .hbm, ⟨18, _⟩ => ⟨S64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i1⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x1, .i32⟩
  | .hbm, ⟨27, _⟩ => ⟨S_, .i32⟩
  | .hbm, ⟨28, _⟩ => ⟨S64x1024, .i32⟩
  | .hbm, ⟨29, _⟩ => ⟨S64x1024, .i1⟩
  | .hbm, ⟨30, _⟩ => ⟨S_, .i32⟩
  | .hbm, ⟨31, _⟩ => ⟨S64x1024, .i32⟩
  | .hbm, ⟨32, _⟩ => ⟨S64x1024, .i32⟩
  | .hbm, ⟨33, _⟩ => ⟨S64x1024, .i32⟩
  | .hbm, ⟨34, _⟩ => ⟨S64x1024, .i32⟩
  | .hbm, ⟨35, _⟩ => ⟨S64x1024x1, .i32⟩
  | .hbm, ⟨36, _⟩ => ⟨S64x1024x1, .i32⟩
  | .hbm, ⟨37, _⟩ => ⟨S64x1024x2, .i32⟩
  | .hbm, ⟨38, _⟩ => ⟨S64x1024x3, .f32⟩
  | .hbm, ⟨39, _⟩ => ⟨S64x1024x1, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024x1, .f32⟩
  | .hbm, ⟨44, _⟩ => ⟨S64x1024, .f32⟩
  | .hbm, ⟨45, _⟩ => ⟨S64x1024x1, .f32⟩
  | .hbm, ⟨46, _⟩ => ⟨S64x1024, .f32⟩
  | .hbm, ⟨47, _⟩ => ⟨S64x1024, .f32⟩
  | .hbm, ⟨48, _⟩ => ⟨S64x1024x1, .f32⟩
  | .hbm, ⟨49, _⟩ => ⟨S64x1024, .f32⟩
  | .hbm, ⟨50, _⟩ => ⟨S64x1024x1, .f32⟩
  | .hbm, ⟨51, _⟩ => ⟨S64x1024, .f32⟩
  | .hbm, ⟨52, _⟩ => ⟨S64x1024, .f32⟩
  | .hbm, ⟨53, _⟩ => ⟨S64x1024, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024, .f32⟩
  | .hbm, ⟨59, _⟩ => ⟨S64x1024, .f32⟩
  | .hbm, ⟨60, _⟩ => ⟨S64x1024x1, .f32⟩
  | .hbm, ⟨61, _⟩ => ⟨S64x1024, .f32⟩
  | .hbm, ⟨62, _⟩ => ⟨S64x1024, .f32⟩
  | .hbm, ⟨63, _⟩ => ⟨S64x1024, .f32⟩
  | .hbm, ⟨64, _⟩ => ⟨S64x1024, .f32⟩
  | .hbm, ⟨65, _⟩ => ⟨S64x1024x1, .f32⟩
  | .hbm, ⟨66, _⟩ => ⟨S64x1024x1, .f32⟩
  | .hbm, ⟨67, _⟩ => ⟨S64x1024x1, .f32⟩
  | .hbm, ⟨68, _⟩ => ⟨S64x1024x1, .f32⟩
  | .hbm, ⟨69, _⟩ => ⟨S64x1024x4, .f32⟩
  | .hbm, ⟨70, _⟩ => ⟨S64x1024x1, .i32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S64x1024x256, .f32⟩
  | .local _ .vmem, ⟨0, _⟩ => ⟨S2x1024x1, .i32⟩
  | .local _ .vmem, ⟨1, _⟩ => ⟨S2x1024x1, .i32⟩
  | .local _ .vmem, ⟨2, _⟩ => ⟨S2x1024x4, .f32⟩
  | .local _ .vmem, ⟨3, _⟩ => ⟨S2x1024x4, .f32⟩
  | .local _ .vmem, ⟨4, _⟩ => ⟨S2x1024x256, .f32⟩
  | .local _ .vmem, ⟨5, _⟩ => ⟨S2x1024x256, .f32⟩
  | .local _ .vmem, ⟨6, _⟩ => ⟨S256x256, .f32⟩
  | .local _ .vmem, ⟨7, _⟩ => ⟨S1x256, .f32⟩
  | .local _ .vmem, ⟨8, _⟩ => ⟨S4x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2x1024x256, .f32⟩
  | .local _ .vmem, ⟨13, _⟩ => ⟨S2x1024x256, .f32⟩
  | _, _ => ⟨S64x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_1 : Ref sig .tc := ⟨.hbm, 20, rfl⟩
abbrev main_v3 : Ref sig .tc := ⟨.hbm, 21, rfl⟩
abbrev main_v4 : Ref sig .tc := ⟨.hbm, 22, rfl⟩
abbrev main_c_2 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_3 : Ref sig .tc := ⟨.hbm, 27, rfl⟩
abbrev main_v8 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S64x1024 : S_.BroadcastsInDim S64x1024 (![] : Fin 0 → Fin S64x1024.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  concatenates_S64x1024x1_S64x1024x1_S64x1024x2_d2 : Shape.Concatenates [S64x1024x1, S64x1024x1] S64x1024x2 2
  slices_S64x1024x3_S64x1024x1_0_0_2 : S64x1024x3.Slices ![0, 0, 2] S64x1024x1
  shapeCasts_S64x1024x1_S64x1024 : S64x1024x1.ShapeCasts S64x1024
  slices_S64x1024x3_S64x1024x1_0_0_0 : S64x1024x3.Slices ![0, 0, 0] S64x1024x1
  slices_S64x1024x3_S64x1024x1_0_0_1 : S64x1024x3.Slices ![0, 0, 1] S64x1024x1
  concatenates_S64x1024x1_S64x1024x1_S64x1024x1_S64x1024x1_S64x1024x4_d2 : Shape.Concatenates [S64x1024x1, S64x1024x1, S64x1024x1, S64x1024x1] S64x1024x4 2
  shapeCasts_S256_S1x256 : S256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S4x256_S4x256_0_0 : ∀ a, (![0, 0] : Fin 2 → Nat) a + S4x256.size a ≤ S4x256.size a
  h_S4x256 : 0 < S4x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  iota_S1x1024_d1_w32 : S1x1024.Iotas .tc 32 [1]
  inb_S2x1024x1_S1x1024x1_0_0_0 : ∀ a, (![0, 0, 0] : Fin 3 → Nat) a + S1x1024x1.size a ≤ S2x1024x1.size a
  h_S1x1024x1 : 0 < S1x1024x1.numel
  shapeCasts_S1x1024x1_S1024x1 : S1x1024x1.ShapeCasts S1024x1
  broadcasts_S1024x1_S1024x1024 : S1024x1.Broadcasts S1024x1024
  broadcasts_S1x1024_S1024x1024 : S1x1024.Broadcasts S1024x1024
  natLt_1_32 : 1 < 32
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  broadcasts_S1x256_S1024x256 : S1x256.Broadcasts S1024x256
  inb_S2x1024x4_S1x1024x4_0_0_0 : ∀ a, (![0, 0, 0] : Fin 3 → Nat) a + S1x1024x4.size a ≤ S2x1024x4.size a
  h_S1x1024x4 : 0 < S1x1024x4.numel
  shapeCasts_S1x1024x4_S1024x4 : S1x1024x4.ShapeCasts S1024x4
  slices_S1024x4_o0_0_S1024x1 : S1024x4.Slices ![0, 0] S1024x1
  slices_S4x256_o0_0_S1x256 : S4x256.Slices ![0, 0] S1x256
  broadcasts_S1024x1_S1024x256 : S1024x1.Broadcasts S1024x256
  slices_S1024x4_o0_1_S1024x1 : S1024x4.Slices ![0, 1] S1024x1
  slices_S4x256_o1_0_S1x256 : S4x256.Slices ![1, 0] S1x256
  slices_S1024x4_o0_2_S1024x1 : S1024x4.Slices ![0, 2] S1024x1
  slices_S4x256_o2_0_S1x256 : S4x256.Slices ![2, 0] S1x256
  slices_S1024x4_o0_3_S1024x1 : S1024x4.Slices ![0, 3] S1024x1
  slices_S4x256_o3_0_S1x256 : S4x256.Slices ![3, 0] S1x256
  shapeCasts_S1024x256_S1x1024x256 : S1024x256.ShapeCasts S1x1024x256
  inb_S2x1024x1_S1x1024x1_1_0_0 : ∀ a, (![1, 0, 0] : Fin 3 → Nat) a + S1x1024x1.size a ≤ S2x1024x1.size a
  inb_S2x1024x256_S1x1024x256_1_0_0 : ∀ a, (![1, 0, 0] : Fin 3 → Nat) a + S1x1024x256.size a ≤ S2x1024x256.size a
  inb_S2x1024x4_S1x1024x4_1_0_0 : ∀ a, (![1, 0, 0] : Fin 3 → Nat) a + S1x1024x4.size a ≤ S2x1024x4.size a
  gather_S64x1024x3_S64x1024x2_S64x1024x3_2_01_n_n_01_2_113_wf : GatherDims.WF S64x1024x3 S64x1024x2 S64x1024x3 [2] [0, 1] [] [0, 1] [] 2 ![1, 1, 3]
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1.size a ≤ S64x1024x1.size a
  hwx0_0 : ∀ i : grid0.Coords, EltTy.bits .i32 = 32 ∨ (Rect.block (s := S64x1024x1) S2x1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x4.size a ≤ S64x1024x4.size a
  hwx0_1 : ∀ i : grid0.Coords, EltTy.bits .f32 = 32 ∨ (Rect.block (s := S64x1024x4) S2x1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x256.size a ≤ S64x1024x256.size a
  hwx0_2 : ∀ i : grid0.Coords, EltTy.bits .f32 = 32 ∨ (Rect.block (s := S64x1024x256) S2x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1024x256.size a ≤ S64x1024x256.size a
  hwx0_9 : ∀ i : grid0.Coords, EltTy.bits .f32 = 32 ∨ (Rect.block (s := S64x1024x256) S2x1024x256.size (cc0_transform_9 i) (hinb0_9 i)).WholeWords (EltTy.packing .f32)

variable [Facts₀]

def gather_S64x1024x3_S64x1024x2_S64x1024x3_2_01_n_n_01_2_113 : GatherDims S64x1024x3 S64x1024x2 S64x1024x3 where
  offsetDims := [2]
  collapsedSliceDims := [0, 1]
  operandBatchingDims := []
  startIndicesBatchingDims := []
  startIndexMap := [0, 1]
  indexVectorDim := 2
  sliceSizes := ![1, 1, 3]
  wf := gather_S64x1024x3_S64x1024x2_S64x1024x3_2_01_n_n_01_2_113_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v49) S2x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2x1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S2x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x1024x3 : Shape := ⟨3, ![64, 1024, 3]⟩
abbrev S64x1024x256 : Shape := ⟨3, ![64, 1024, 256]⟩
abbrev S256x256 : Shape := ⟨2, ![256, 256]⟩
abbrev S256 : Shape := ⟨1, ![256]⟩
abbrev S4x256 : Shape := ⟨2, ![4, 256]⟩
abbrev S64 : Shape := ⟨1, ![64]⟩
abbrev S64x1 : Shape := ⟨2, ![64, 1]⟩
abbrev S_ : Shape := ⟨0, ![]⟩
abbrev S64x1024x1 : Shape := ⟨3, ![64, 1024, 1]⟩
abbrev S64x1024x2 : Shape := ⟨3, ![64, 1024, 2]⟩
abbrev S1x1x256 : Shape := ⟨3, ![1, 1, 256]⟩
abbrev S64x1024x4 : Shape := ⟨3, ![64, 1024, 4]⟩

abbrev nBuf : Space → Nat
  | .hbm => 97
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S64x1024x3, .f32⟩
  | .hbm, ⟨2, _⟩ => ⟨S64x1024x256, .f32⟩
  | .hbm, ⟨3, _⟩ => ⟨S64x1024x3, .f32⟩
  | .hbm, ⟨4, _⟩ => ⟨S256x256, .f32⟩
  | .hbm, ⟨5, _⟩ => ⟨S256, .f32⟩
  | .hbm, ⟨6, _⟩ => ⟨S4x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S64, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x1, .i32⟩
  | .hbm, ⟨19, _⟩ => ⟨S_, .i32⟩
  | .hbm, ⟨20, _⟩ => ⟨S64x1024, .i32⟩
  | .hbm, ⟨21, _⟩ => ⟨S64x1024, .i1⟩
  | .hbm, ⟨22, _⟩ => ⟨S_, .i32⟩
  | .hbm, ⟨23, _⟩ => ⟨S64x1024, .i32⟩
  | .hbm, ⟨24, _⟩ => ⟨S64x1024, .i32⟩
  | .hbm, ⟨25, _⟩ => ⟨S64x1024, .i32⟩
  | .hbm, ⟨26, _⟩ => ⟨S64x1024, .i32⟩
  | .hbm, ⟨27, _⟩ => ⟨S64x1024x1, .i32⟩
  | .hbm, ⟨28, _⟩ => ⟨S64x1024x1, .i32⟩
  | .hbm, ⟨29, _⟩ => ⟨S64x1024x2, .i32⟩
  | .hbm, ⟨30, _⟩ => ⟨S64x1024x256, .f32⟩
  | .hbm, ⟨31, _⟩ => ⟨S64x1024x256, .f32⟩
  | .hbm, ⟨32, _⟩ => ⟨S1x1x256, .f32⟩
  | .hbm, ⟨33, _⟩ => ⟨S64x1024x256, .f32⟩
  | .hbm, ⟨34, _⟩ => ⟨S64x1024x256, .f32⟩
  | .hbm, ⟨35, _⟩ => ⟨S_, .i32⟩
  | .hbm, ⟨36, _⟩ => ⟨S64x1, .i32⟩
  | .hbm, ⟨37, _⟩ => ⟨S64x1, .i1⟩
  | .hbm, ⟨38, _⟩ => ⟨S_, .i32⟩
  | .hbm, ⟨39, _⟩ => ⟨S64x1, .i32⟩
  | .hbm, ⟨40, _⟩ => ⟨S64x1, .i32⟩
  | .hbm, ⟨41, _⟩ => ⟨S64x1, .i32⟩
  | .hbm, ⟨42, _⟩ => ⟨S_, .i32⟩
  | .hbm, ⟨43, _⟩ => ⟨S64x1024, .i32⟩
  | .hbm, ⟨44, _⟩ => ⟨S64x1024, .i1⟩
  | .hbm, ⟨45, _⟩ => ⟨S_, .i32⟩
  | .hbm, ⟨46, _⟩ => ⟨S64x1024, .i32⟩
  | .hbm, ⟨47, _⟩ => ⟨S64x1024, .i32⟩
  | .hbm, ⟨48, _⟩ => ⟨S64x1024, .i32⟩
  | .hbm, ⟨49, _⟩ => ⟨S64x1024, .i32⟩
  | .hbm, ⟨50, _⟩ => ⟨S64x1024x1, .i32⟩
  | .hbm, ⟨51, _⟩ => ⟨S64x1024x1, .i32⟩
  | .hbm, ⟨52, _⟩ => ⟨S64x1024x2, .i32⟩
  | .hbm, ⟨53, _⟩ => ⟨S64x1024x3, .f32⟩
  | .hbm, ⟨54, _⟩ => ⟨S64x1024x1, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024x1, .f32⟩
  | .hbm, ⟨59, _⟩ => ⟨S64x1024, .f32⟩
  | .hbm, ⟨60, _⟩ => ⟨S64x1024x1, .f32⟩
  | .hbm, ⟨61, _⟩ => ⟨S64x1024, .f32⟩
  | .hbm, ⟨62, _⟩ => ⟨S64x1024, .f32⟩
  | .hbm, ⟨63, _⟩ => ⟨S64x1024x1, .f32⟩
  | .hbm, ⟨64, _⟩ => ⟨S64x1024, .f32⟩
  | .hbm, ⟨65, _⟩ => ⟨S64x1024x1, .f32⟩
  | .hbm, ⟨66, _⟩ => ⟨S64x1024, .f32⟩
  | .hbm, ⟨67, _⟩ => ⟨S64x1024, .f32⟩
  | .hbm, ⟨68, _⟩ => ⟨S64x1024, .f32⟩
  | .hbm, ⟨69, _⟩ => ⟨S64x1024, .f32⟩
  | .hbm, ⟨70, _⟩ => ⟨S64x1024, .f32⟩
  | .hbm, ⟨71, _⟩ => ⟨S64x1024, .f32⟩
  | .hbm, ⟨72, _⟩ => ⟨S64x1024, .f32⟩
  | .hbm, ⟨73, _⟩ => ⟨S64x1024, .f32⟩
  | .hbm, ⟨74, _⟩ => ⟨S64x1024, .f32⟩
  | .hbm, ⟨75, _⟩ => ⟨S64x1024x1, .f32⟩
  | .hbm, ⟨76, _⟩ => ⟨S64x1024, .f32⟩
  | .hbm, ⟨77, _⟩ => ⟨S64x1024, .f32⟩
  | .hbm, ⟨78, _⟩ => ⟨S64x1024, .f32⟩
  | .hbm, ⟨79, _⟩ => ⟨S64x1024, .f32⟩
  | .hbm, ⟨80, _⟩ => ⟨S64x1024x1, .f32⟩
  | .hbm, ⟨81, _⟩ => ⟨S64x1024x1, .f32⟩
  | .hbm, ⟨82, _⟩ => ⟨S64x1024x1, .f32⟩
  | .hbm, ⟨83, _⟩ => ⟨S64x1024x1, .f32⟩
  | .hbm, ⟨84, _⟩ => ⟨S64x1024x4, .f32⟩
  | .hbm, ⟨85, _⟩ => ⟨S64x1024x256, .f32⟩
  | .hbm, ⟨86, _⟩ => ⟨S1x1x256, .f32⟩
  | .hbm, ⟨87, _⟩ => ⟨S64x1024x256, .f32⟩
  | .hbm, ⟨88, _⟩ => ⟨S64x1024x256, .f32⟩
  | .hbm, ⟨89, _⟩ => ⟨S_, .f32⟩
  | .hbm, ⟨90, _⟩ => ⟨S64x1024x256, .f32⟩
  | .hbm, ⟨91, _⟩ => ⟨S64x1024x256, .f32⟩
  | .hbm, ⟨92, _⟩ => ⟨S64x1024x256, .f32⟩
  | .hbm, ⟨93, _⟩ => ⟨S1x1x256, .f32⟩
  | .hbm, ⟨94, _⟩ => ⟨S64x1024x256, .f32⟩
  | .hbm, ⟨95, _⟩ => ⟨S64x1024x256, .f32⟩
  | .hbm, ⟨96, _⟩ => ⟨S64x1024x256, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call0_cst : Ref sig .tc := ⟨.hbm, 89, rfl⟩
abbrev main_call0_v0 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  bcast_S_S64x1024 : S_.BroadcastsInDim S64x1024 (![] : Fin 0 → Fin S64x1024.rank)
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  concatenates_S64x1024x1_S64x1024x1_S64x1024x2_d2 : Shape.Concatenates [S64x1024x1, S64x1024x1] S64x1024x2 2
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  slices_S64x1024x3_S64x1024x1_0_0_2 : S64x1024x3.Slices ![0, 0, 2] S64x1024x1
  shapeCasts_S64x1024x1_S64x1024 : S64x1024x1.ShapeCasts S64x1024
  slices_S64x1024x3_S64x1024x1_0_0_0 : S64x1024x3.Slices ![0, 0, 0] S64x1024x1
  slices_S64x1024x3_S64x1024x1_0_0_1 : S64x1024x3.Slices ![0, 0, 1] S64x1024x1
  concatenates_S64x1024x1_S64x1024x1_S64x1024x1_S64x1024x1_S64x1024x4_d2 : Shape.Concatenates [S64x1024x1, S64x1024x1, S64x1024x1, S64x1024x1] S64x1024x4 2
  bcast_S_S64x1024x256 : S_.BroadcastsInDim S64x1024x256 (![] : Fin 0 → Fin S64x1024x256.rank)
  gather_S64x1024x256_S64x1024x2_S64x1024x256_2_01_n_n_01_2_11256_wf : GatherDims.WF S64x1024x256 S64x1024x2 S64x1024x256 [2] [0, 1] [] [0, 1] [] 2 ![1, 1, 256]
  dot_S64x1024x256_S256x256_S64x1024x256_2_0_01_1_n_n_wf : DotDims.WF S64x1024x256 S256x256 S64x1024x256 [2] [0] [0, 1] [1] [] []
  gather_S64x1024x3_S64x1024x2_S64x1024x3_2_01_n_n_01_2_113_wf : GatherDims.WF S64x1024x3 S64x1024x2 S64x1024x3 [2] [0, 1] [] [0, 1] [] 2 ![1, 1, 3]
  dot_S64x1024x4_S4x256_S64x1024x256_2_0_01_1_n_n_wf : DotDims.WF S64x1024x4 S4x256 S64x1024x256 [2] [0] [0, 1] [1] [] []

variable [Facts₀]

def gather_S64x1024x256_S64x1024x2_S64x1024x256_2_01_n_n_01_2_11256 : GatherDims S64x1024x256 S64x1024x2 S64x1024x256 where
  offsetDims := [2]
  collapsedSliceDims := [0, 1]
  operandBatchingDims := []
  startIndicesBatchingDims := []
  startIndexMap := [0, 1]
  indexVectorDim := 2
  sliceSizes := ![1, 1, 256]
  wf := gather_S64x1024x256_S64x1024x2_S64x1024x256_2_01_n_n_01_2_11256_wf
def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def gather_S64x1024x3_S64x1024x2_S64x1024x3_2_01_n_n_01_2_113 : GatherDims S64x1024x3 S64x1024x2 S64x1024x3 where
  offsetDims := [2]
  collapsedSliceDims := [0, 1]
  operandBatchingDims := []
  startIndicesBatchingDims := []
  startIndexMap := [0, 1]
  indexVectorDim := 2
  sliceSizes := ![1, 1, 3]
  wf := gather_S64x1024x3_S64x1024x2_S64x1024x3_2_01_n_n_01_2_113_wf
def dot_S64x1024x4_S4x256_S64x1024x256_2_0_01_1_n_n : DotDims S64x1024x4 S4x256 S64x1024x256 where
  lhsContracting := [2]
  rhsContracting := [0]
  lhsNonContracting := [0, 1]
  rhsNonContracting := [1]
  lhsBatch := []
  rhsBatch := []
  wf := dot_S64x1024x4_S4x256_S64x1024x256_2_0_01_1_n_n_wf

class Facts : Prop extends Facts₀ where

variable [Facts]
-- ==== Proof.FrameK.lean ====
/-
  The frame of `Kernel`: every weakly fair execution of @main — three stretches of host operations (the clip of the
  navigation indices, the pose gather with its trigonometry, the four-piece concatenate that builds the pose features)
  and then ONE pipelined region of 32 grid points — terminates without a fault and leaves the ten argument arrays as
  launched.  The region's body reads nine input windows through literal rectangles and writes its output window's
  block by two stores that tile it (scene 0 of the pair, then scene 1); what the block holds after the body is the
  canonical contents of those two stores over the input blocks (`out0_9`).  The run also names every array after the
  region (`run_main`), which is what the value proof starts from.
-/
import proofs.«405649_j52355651338944_3_alg».proof.Proof.Gen.Kernel.Launch
import proofs.«405649_j52355651338944_3_alg».proof.Proof.Gen.Kernel.Skeleton
import proofs.«405649_j52355651338944_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there
    or the block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The library's frame post, read at the argument arrays — an array a window stages by `Dat.arrAt_in`, any other by
    the post's second clause, each then as launched —, says every argument array is as launched. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c)⟩

/-- So a run to the library's frame post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_of_post m dats hA r h c) h

/-! ## The body's accesses -/

abbrev rW : Rect S256x256 := Rect.unit (s := S256x256) ![0, 0] S256x256.size inb_S256x256_S256x256_0_0
abbrev rE : Rect S4x256 := Rect.unit (s := S4x256) ![0, 0] S4x256.size inb_S4x256_S4x256_0_0
abbrev rB : Rect S1x256 := Rect.unit (s := S1x256) ![0, 0] S1x256.size inb_S1x256_S1x256_0_0
abbrev rN0 : Rect S2x1024x1 := Rect.unit (s := S2x1024x1) ![0, 0, 0] S1x1024x1.size inb_S2x1024x1_S1x1024x1_0_0_0
abbrev rN1 : Rect S2x1024x1 := Rect.unit (s := S2x1024x1) ![1, 0, 0] S1x1024x1.size inb_S2x1024x1_S1x1024x1_1_0_0
abbrev rP0 : Rect S2x1024x4 := Rect.unit (s := S2x1024x4) ![0, 0, 0] S1x1024x4.size inb_S2x1024x4_S1x1024x4_0_0_0
abbrev rP1 : Rect S2x1024x4 := Rect.unit (s := S2x1024x4) ![1, 0, 0] S1x1024x4.size inb_S2x1024x4_S1x1024x4_1_0_0
abbrev rF0 : Rect S2x1024x256 := Rect.unit (s := S2x1024x256) ![0, 0, 0] S1x1024x256.size inb_S2x1024x256_S1x1024x256_0_0_0
abbrev rF1 : Rect S2x1024x256 := Rect.unit (s := S2x1024x256) ![1, 0, 0] S1x1024x256.size inb_S2x1024x256_S1x1024x256_1_0_0

/-! ## What the body leaves in the output window's buffer -/

/-- Scene 0's rows of the output block, from the input blocks: the first store's value. -/
def scene0 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : FVec F S1x1024x256 .f32 :=
  k0_pay11 (k0_pay3 (View.ld x7 rW)) (View.ld x5 rE) (k0_pay5 (View.ld x6 rB)) (k0_pay6 (View.ld x8 rB))
    (k0_pay7 (View.ld x3 rW) (View.ld x4 rB) (View.ld x0 rN0) (View.ld x2 rF0)) (k0_pay8 (View.ld x1 rP0))
    (k0_pay9 (View.ld x5 rE) (View.ld x1 rP0)) (k0_pay10 (View.ld x1 rP0))

/-- Scene 1's rows of the output block, from the input blocks: the second store's value. -/
def scene1 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : FVec F S1x1024x256 .f32 :=
  k0_pay1 (k0_pay3 (View.ld x7 rW)) (View.ld x5 rE) (k0_pay5 (View.ld x6 rB)) (k0_pay6 (View.ld x8 rB))
    (k0_pay12 (k0_pay2 (View.ld x3 rW)) (k0_pay4 (View.ld x4 rB)) (iota .tc S1x1024 32 [1] iota_S1x1024_d1_w32) (View.ld x0 rN1) (View.ld x2 rF1))
    (View.ld x1 rP1)

/-- The output window's staging buffer after the body: its two stores as pieces, the later first. -/
def out0_9 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : Vec F S2x1024x256 .f32 :=
  View.canon [⟨rF1, scene1 x0 x1 x2 x3 x4 x5 x6 x7 x8⟩, ⟨rF0, scene0 x0 x1 x2 x3 x4 x5 x6 x7 x8⟩]

/-- The two stores tile the buffer, so they cover it. -/
theorem cover0_9 (p0 p1 : Vec F S1x1024x256 .f32) (y : S2x1024x256.Idx) :
    ∃ pc ∈ ([⟨rF1, p1⟩, ⟨rF0, p0⟩] : List (View.Piece (Elt F) S2x1024x256 .f32)), y ∈ pc.1.set :=
  View.cover_of_tiled [⟨rF1, p1⟩, ⟨rF0, p0⟩] S1x1024x256.size (by rfl) y

/-! ## The body's triple -/

set_option maxHeartbeats 4000000 in
/-- The kernel body on whole staging memrefs, the inputs' at read contents `xW` and the output's at anything, runs to
    the continuation holding the inputs' as they were and the output's at `out0_9` of the inputs'. -/
theorem sound_kernel (c : Dev nD) (E : Set ℕ) (i : grid0.Coords) (arg1 : Memref sig .tc .vmem S2x1024x1 .i32) (harg1 : arg1.IsWhole) (arg2 : Memref sig .tc .vmem S2x1024x4 .f32) (harg2 : arg2.IsWhole) (arg3 : Memref sig .tc .vmem S2x1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2x1024x256 .f32) (harg10 : arg10.IsWhole)
    (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _ _)

/-! ## The pipeline's proof data -/

/-- The proof data of the pipeline on core `c`: the arrays as the region finds them; after the body at point `t`
    each input's buffer at its block and the output's at `out0_9` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.FrameKI.lean ====
/-
  The frame of `KernelIdeal`: every weakly fair execution of @main — three stretches of host operations (the clip of the
  navigation indices, the pose gather with its trigonometry, the four-piece concatenate that builds the pose features)
  and then ONE pipelined region of 32 grid points — terminates without a fault and leaves the ten argument arrays as
  launched.  The region's body reads nine input windows through literal rectangles and writes its output window's
  block by two stores that tile it (scene 0 of the pair, then scene 1); what the block holds after the body is the
  canonical contents of those two stores over the input blocks (`out0_9`).  The run also names every array after the
  region (`run_main`), which is what the value proof starts from.
-/
import proofs.«405649_j52355651338944_3_alg».proof.Proof.Gen.KernelIdeal.Launch
import proofs.«405649_j52355651338944_3_alg».proof.Proof.Gen.KernelIdeal.Skeleton
import proofs.«405649_j52355651338944_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main is the three stretches of host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the pipeline fetched it there
    or the block index has not moved since it was fetched. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The library's frame post, read at the argument arrays — an array a window stages by `Dat.arrAt_in`, any other by
    the post's second clause, each then as launched —, says every argument array is as launched. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).2 main_arg5 (Pipeline.mem_restRefs_of main_arg5 (by decide) (by decide))).trans (V_main_arg5 m c),
      ((h c).1 5).trans (((dats 0 c).arrAt_in 5 rfl _).trans ((hA c 5).trans (V_main_arg6 m c))),
      ((h c).2 main_arg7 (Pipeline.mem_restRefs_of main_arg7 (by decide) (by decide))).trans (V_main_arg7 m c),
      ((h c).1 7).trans (((dats 0 c).arrAt_in 7 rfl _).trans ((hA c 7).trans (V_main_arg8 m c))),
      ((h c).2 main_arg9 (Pipeline.mem_restRefs_of main_arg9 (by decide) (by decide))).trans (V_main_arg9 m c)⟩

/-- So a run to the library's frame post is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept_of_post m dats hA r h c) h

/-! ## The body's accesses -/

abbrev rW : Rect S256x256 := Rect.unit (s := S256x256) ![0, 0] S256x256.size inb_S256x256_S256x256_0_0
abbrev rE : Rect S4x256 := Rect.unit (s := S4x256) ![0, 0] S4x256.size inb_S4x256_S4x256_0_0
abbrev rB : Rect S1x256 := Rect.unit (s := S1x256) ![0, 0] S1x256.size inb_S1x256_S1x256_0_0
abbrev rN0 : Rect S2x1024x1 := Rect.unit (s := S2x1024x1) ![0, 0, 0] S1x1024x1.size inb_S2x1024x1_S1x1024x1_0_0_0
abbrev rN1 : Rect S2x1024x1 := Rect.unit (s := S2x1024x1) ![1, 0, 0] S1x1024x1.size inb_S2x1024x1_S1x1024x1_1_0_0
abbrev rP0 : Rect S2x1024x4 := Rect.unit (s := S2x1024x4) ![0, 0, 0] S1x1024x4.size inb_S2x1024x4_S1x1024x4_0_0_0
abbrev rP1 : Rect S2x1024x4 := Rect.unit (s := S2x1024x4) ![1, 0, 0] S1x1024x4.size inb_S2x1024x4_S1x1024x4_1_0_0
abbrev rF0 : Rect S2x1024x256 := Rect.unit (s := S2x1024x256) ![0, 0, 0] S1x1024x256.size inb_S2x1024x256_S1x1024x256_0_0_0
abbrev rF1 : Rect S2x1024x256 := Rect.unit (s := S2x1024x256) ![1, 0, 0] S1x1024x256.size inb_S2x1024x256_S1x1024x256_1_0_0

/-! ## What the body leaves in the output window's buffer -/

/-- Scene 0's rows of the output block, from the input blocks: the first store's value. -/
def scene0 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : FVec F S1x1024x256 .f32 :=
  k0_pay11 (k0_pay3 (View.ld x7 rW)) (View.ld x5 rE) (k0_pay5 (View.ld x6 rB)) (k0_pay6 (View.ld x8 rB))
    (k0_pay7 (View.ld x3 rW) (View.ld x4 rB) (View.ld x0 rN0) (View.ld x2 rF0)) (k0_pay8 (View.ld x1 rP0))
    (k0_pay9 (View.ld x5 rE) (View.ld x1 rP0)) (k0_pay10 (View.ld x1 rP0))

/-- Scene 1's rows of the output block, from the input blocks: the second store's value. -/
def scene1 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : FVec F S1x1024x256 .f32 :=
  k0_pay1 (k0_pay3 (View.ld x7 rW)) (View.ld x5 rE) (k0_pay5 (View.ld x6 rB)) (k0_pay6 (View.ld x8 rB))
    (k0_pay12 (k0_pay2 (View.ld x3 rW)) (k0_pay4 (View.ld x4 rB)) (iota .tc S1x1024 32 [1] iota_S1x1024_d1_w32) (View.ld x0 rN1) (View.ld x2 rF1))
    (View.ld x1 rP1)

/-- The output window's staging buffer after the body: its two stores as pieces, the later first. -/
def out0_9 (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) : Vec F S2x1024x256 .f32 :=
  View.canon [⟨rF1, scene1 x0 x1 x2 x3 x4 x5 x6 x7 x8⟩, ⟨rF0, scene0 x0 x1 x2 x3 x4 x5 x6 x7 x8⟩]

/-- The two stores tile the buffer, so they cover it. -/
theorem cover0_9 (p0 p1 : Vec F S1x1024x256 .f32) (y : S2x1024x256.Idx) :
    ∃ pc ∈ ([⟨rF1, p1⟩, ⟨rF0, p0⟩] : List (View.Piece (Elt F) S2x1024x256 .f32)), y ∈ pc.1.set :=
  View.cover_of_tiled [⟨rF1, p1⟩, ⟨rF0, p0⟩] S1x1024x256.size (by rfl) y

/-! ## The body's triple -/

set_option maxHeartbeats 4000000 in
/-- The kernel body on whole staging memrefs, the inputs' at read contents `xW` and the output's at anything, runs to
    the continuation holding the inputs' as they were and the output's at `out0_9` of the inputs'. -/
theorem sound_kernel (c : Dev nD) (E : Set ℕ) (i : grid0.Coords) (arg1 : Memref sig .tc .vmem S2x1024x1 .i32) (harg1 : arg1.IsWhole) (arg2 : Memref sig .tc .vmem S2x1024x4 .f32) (harg2 : arg2.IsWhole) (arg3 : Memref sig .tc .vmem S2x1024x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S4x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S2x1024x256 .f32) (harg10 : arg10.IsWhole)
    (x0 : Vec F S2x1024x1 .i32) (x1 : Vec F S2x1024x4 .f32) (x2 : Vec F S2x1024x256 .f32) (x3 : Vec F S256x256 .f32) (x4 : Vec F S1x256 .f32) (x5 : Vec F S4x256 .f32) (x6 : Vec F S1x256 .f32) (x7 : Vec F S256x256 .f32) (x8 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10) K := by
  simp only [cc0__kernel_eq_skeleton]; unfold cc0__kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _ _)

/-! ## The pipeline's proof data -/

/-- The proof data of the pipeline on core `c`: the arrays as the region finds them; after the body at point `t`
    each input's buffer at its block and the output's at `out0_9` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the library computes from the proof data and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.Blocks.lean ====
/-
  The region's windows read at an entry: which element of which array each loaded block holds.

  Grid point `t` (of 32) handles the scene pair `(2t, 2t+1)`.  The navigation, pose-feature, map-feature and output
  windows move with the point along the scene axis in blocks of two scenes; the six weight and bias windows are one
  block each, the same at every point.  So entry `(s, j, k)` of a moving window's block at point `t` is entry
  `(2t + s, j, k)` of its array, and an entry of a fixed window's block is the same entry of its array.  The output's
  32 blocks tile the result array.
-/
import proofs.«405649_j52355651338944_3_alg».proof.Proof.FrameKI
import Idealize.ShloMosaic.Lib.Pipeline.Value
import Idealize.ShloMosaic.Lib.ValueIdx

noncomputable section

namespace Cert.KernelIdeal.Blocks

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The printed index maps, decided over the 32 grid points: the four moving windows sit at block `t` of the scene
    axis, the six fixed ones at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_9.index t (0 : Fin 3) = t.val ∧ win0_9.index t (1 : Fin 3) = 0 ∧ win0_9.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem t_lt (t : Fin cfg0.N) : t.val < 32 := lt_of_lt_of_eq t.isLt N_0

/-- The scene a point's block entry belongs to. -/
abbrev scene (t : Fin cfg0.N) (s : Fin 2) : Fin 64 := ⟨2 * t.val + s.val, by have := t_lt t; omega⟩

/-! ### The moving windows -/

theorem blk0_read (c : Dev nD) (t : Fin cfg0.N) (s : Fin 2) (j : Fin 1024) (k : Fin 1) :
    iblk m c 0 t (ix3 s j k) = (V m c main_v49 : S64x1024x1.Idx → Elt F .i32) (ix3 (scene t s) j k) := by
  obtain ⟨⟨e0, e1, e2⟩, -⟩ := idx_facts t
  show V m c main_v49 (((cfg0.win 0).blk t).view.emb (ix3 s j k)) = V m c main_v49 _
  congr 1; funext a; apply Fin.ext
  match a with
  | ⟨0, _⟩ => show win0_0.index t (0 : Fin 3) * 2 + 1 * s.val = 2 * t.val + s.val; omega
  | ⟨1, _⟩ => show win0_0.index t (1 : Fin 3) * 1024 + 1 * j.val = j.val; omega
  | ⟨2, _⟩ => show win0_0.index t (2 : Fin 3) * 1 + 1 * k.val = k.val; omega

theorem blk1_read (c : Dev nD) (t : Fin cfg0.N) (s : Fin 2) (j : Fin 1024) (k : Fin 4) :
    iblk m c 1 t (ix3 s j k) = (V m c main_v48 : S64x1024x4.Idx → Elt F .f32) (ix3 (scene t s) j k) := by
  obtain ⟨-, ⟨e0, e1, e2⟩, -⟩ := idx_facts t
  show V m c main_v48 (((cfg0.win 1).blk t).view.emb (ix3 s j k)) = V m c main_v48 _
  congr 1; funext a; apply Fin.ext
  match a with
  | ⟨0, _⟩ => show win0_1.index t (0 : Fin 3) * 2 + 1 * s.val = 2 * t.val + s.val; omega
  | ⟨1, _⟩ => show win0_1.index t (1 : Fin 3) * 1024 + 1 * j.val = j.val; omega
  | ⟨2, _⟩ => show win0_1.index t (2 : Fin 3) * 4 + 1 * k.val = k.val; omega

theorem blk2_read (c : Dev nD) (t : Fin cfg0.N) (s : Fin 2) (j : Fin 1024) (k : Fin 256) :
    iblk m c 2 t (ix3 s j k) = (V m c main_arg2 : S64x1024x256.Idx → Elt F .f32) (ix3 (scene t s) j k) := by
  obtain ⟨-, -, ⟨e0, e1, e2⟩, -⟩ := idx_facts t
  show V m c main_arg2 (((cfg0.win 2).blk t).view.emb (ix3 s j k)) = V m c main_arg2 _
  congr 1; funext a; apply Fin.ext
  match a with
  | ⟨0, _⟩ => show win0_2.index t (0 : Fin 3) * 2 + 1 * s.val = 2 * t.val + s.val; omega
  | ⟨1, _⟩ => show win0_2.index t (1 : Fin 3) * 1024 + 1 * j.val = j.val; omega
  | ⟨2, _⟩ => show win0_2.index t (2 : Fin 3) * 256 + 1 * k.val = k.val; omega

/-! ### The fixed windows -/

theorem blk3_read (c : Dev nD) (t : Fin cfg0.N) (j : Fin 256) (k : Fin 256) :
    iblk m c 3 t (ix2 j k) = (V m c main_arg4 : S256x256.Idx → Elt F .f32) (ix2 j k) := by
  obtain ⟨-, -, -, -, ⟨e0, e1⟩, -⟩ := idx_facts t
  show V m c main_arg4 (((cfg0.win 3).blk t).view.emb (ix2 j k)) = V m c main_arg4 _
  congr 1; funext a; apply Fin.ext
  match a with
  | ⟨0, _⟩ => show win0_3.index t (0 : Fin 2) * 256 + 1 * j.val = j.val; omega
  | ⟨1, _⟩ => show win0_3.index t (1 : Fin 2) * 256 + 1 * k.val = k.val; omega

theorem blk4_read (c : Dev nD) (t : Fin cfg0.N) (j : Fin 1) (k : Fin 256) :
    iblk m c 4 t (ix2 j k) = (V m c main_v50 : S1x256.Idx → Elt F .f32) (ix2 j k) := by
  obtain ⟨-, -, -, -, -, ⟨e0, e1⟩, -⟩ := idx_facts t
  show V m c main_v50 (((cfg0.win 4).blk t).view.emb (ix2 j k)) = V m c main_v50 _
  congr 1; funext a; apply Fin.ext
  match a with
  | ⟨0, _⟩ => show win0_4.index t (0 : Fin 2) * 1 + 1 * j.val = j.val; omega
  | ⟨1, _⟩ => show win0_4.index t (1 : Fin 2) * 256 + 1 * k.val = k.val; omega

theorem blk5_read (c : Dev nD) (t : Fin cfg0.N) (j : Fin 4) (k : Fin 256) :
    iblk m c 5 t (ix2 j k) = (V m c main_arg6 : S4x256.Idx → Elt F .f32) (ix2 j k) := by
  obtain ⟨-, -, -, -, -, -, ⟨e0, e1⟩, -⟩ := idx_facts t
  show V m c main_arg6 (((cfg0.win 5).blk t).view.emb (ix2 j k)) = V m c main_arg6 _
  congr 1; funext a; apply Fin.ext
  match a with
  | ⟨0, _⟩ => show win0_5.index t (0 : Fin 2) * 4 + 1 * j.val = j.val; omega
  | ⟨1, _⟩ => show win0_5.index t (1 : Fin 2) * 256 + 1 * k.val = k.val; omega

theorem blk6_read (c : Dev nD) (t : Fin cfg0.N) (j : Fin 1) (k : Fin 256) :
    iblk m c 6 t (ix2 j k) = (V m c main_v51 : S1x256.Idx → Elt F .f32) (ix2 j k) := by
  obtain ⟨-, -, -, -, -, -, -, ⟨e0, e1⟩, -⟩ := idx_facts t
  show V m c main_v51 (((cfg0.win 6).blk t).view.emb (ix2 j k)) = V m c main_v51 _
  congr 1; funext a; apply Fin.ext
  match a with
  | ⟨0, _⟩ => show win0_6.index t (0 : Fin 2) * 1 + 1 * j.val = j.val; omega
  | ⟨1, _⟩ => show win0_6.index t (1 : Fin 2) * 256 + 1 * k.val = k.val; omega

theorem blk7_read (c : Dev nD) (t : Fin cfg0.N) (j : Fin 256) (k : Fin 256) :
    iblk m c 7 t (ix2 j k) = (V m c main_arg8 : S256x256.Idx → Elt F .f32) (ix2 j k) := by
  obtain ⟨-, -, -, -, -, -, -, -, ⟨e0, e1⟩, -⟩ := idx_facts t
  show V m c main_arg8 (((cfg0.win 7).blk t).view.emb (ix2 j k)) = V m c main_arg8 _
  congr 1; funext a; apply Fin.ext
  match a with
  | ⟨0, _⟩ => show win0_7.index t (0 : Fin 2) * 256 + 1 * j.val = j.val; omega
  | ⟨1, _⟩ => show win0_7.index t (1 : Fin 2) * 256 + 1 * k.val = k.val; omega

theorem blk8_read (c : Dev nD) (t : Fin cfg0.N) (j : Fin 1) (k : Fin 256) :
    iblk m c 8 t (ix2 j k) = (V m c main_v52 : S1x256.Idx → Elt F .f32) (ix2 j k) := by
  obtain ⟨-, -, -, -, -, -, -, -, -, ⟨e0, e1⟩⟩ := idx_facts t
  show V m c main_v52 (((cfg0.win 8).blk t).view.emb (ix2 j k)) = V m c main_v52 _
  congr 1; funext a; apply Fin.ext
  match a with
  | ⟨0, _⟩ => show win0_8.index t (0 : Fin 2) * 1 + 1 * j.val = j.val; omega
  | ⟨1, _⟩ => show win0_8.index t (1 : Fin 2) * 256 + 1 * k.val = k.val; omega

/-! ### The output's blocks tile the result -/

/-- An index of the result is in point `t`'s block iff each coordinate is in the block's range on its axis. -/
theorem mem_blk9 (t : Fin cfg0.N) (i : S64x1024x256.Idx) :
    i ∈ ((cfg0.win 9).blk t).view.set ↔ ∀ a : Fin 3, win0_9.index t a * S2x1024x256.size a ≤ (i a).val ∧ (i a).val < win0_9.index t a * S2x1024x256.size a + S2x1024x256.size a := by
  show i ∈ ((View.whole main_v53).slice (win0_9.rect t)).set ↔ _
  rw [View.set_slice_whole, Rect.mem_set_unit]
  exact Iff.rfl

/-- Every index of the result is in the block of the point that handles its scene. -/
theorem cover9 (i : S64x1024x256.Idx) :
    ∃ t : Fin cfg0.N, (cfg0.win 9).flush t = true ∧ i ∈ ((cfg0.win 9).blk t).view.set := by
  have hi0 : (i 0).val < 64 := (i 0).isLt
  have hi1 : (i 1).val < 1024 := (i 1).isLt
  have hi2 : (i 2).val < 256 := (i 2).isLt
  let t : Fin cfg0.N := ⟨(i 0).val / 2, by rw [show cfg0.N = 32 from N_0]; omega⟩
  obtain ⟨-, -, -, ⟨e0, e1, e2⟩, -⟩ := idx_facts t
  have ht : t.val = (i 0).val / 2 := rfl
  refine ⟨t, flush0_9 t, ?_⟩
  rw [mem_blk9]
  intro a
  match a with
  | ⟨0, _⟩ => show win0_9.index t (0 : Fin 3) * 2 ≤ (i 0).val ∧ (i 0).val < win0_9.index t (0 : Fin 3) * 2 + 2; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 256 ≤ (i 2).val ∧ (i 2).val < win0_9.index t (2 : Fin 3) * 256 + 256; omega

/-- The array element under entry `(s, j, k)` of the output's block at point `t`. -/
theorem blk9_emb (t : Fin cfg0.N) (s : Fin 2) (j : Fin 1024) (k : Fin 256) :
    ((cfg0.win 9).blk t).view.emb (ix3 s j k) = (ix3 (scene t s) j k : S64x1024x256.Idx) := by
  obtain ⟨-, -, -, ⟨e0, e1, e2⟩, -⟩ := idx_facts t
  funext a; apply Fin.ext
  match a with
  | ⟨0, _⟩ => show win0_9.index t (0 : Fin 3) * 2 + 1 * s.val = 2 * t.val + s.val; omega
  | ⟨1, _⟩ => show win0_9.index t (1 : Fin 3) * 1024 + 1 * j.val = j.val; omega
  | ⟨2, _⟩ => show win0_9.index t (2 : Fin 3) * 256 + 1 * k.val = k.val; omega

end Cert.KernelIdeal.Blocks

end
-- ==== Proof.HostStage.lean ====
/-
  What the region finds in the four arrays the host computes before it: the navigation indices clipped into the
  map's range (as a column per scene), the four relative-pose features, and the three bias vectors as rows.

  @main first clips the navigation indices into `[0, 1023]`, then runs the same chain of operations as the reference
  on them — gather the destination token's pose, rotate the offset into the agent's frame, take the cosine and sine
  of the relative yaw, join the four features — and reshapes the biases.  So the pose features are the reference's
  own stage applied to the clipped indices, and on indices already in range the clip does nothing.
-/
import proofs.«405649_j52355651338944_3_alg».proof.Proof.FrameKI
import proofs.«405649_j52355651338944_3_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostStage

open Cert.KernelIdeal Cert.KernelIdeal.Gen Cert.KernelIdeal.Hand
open Idealize.ShloMosaic Idealize.ShloMosaic.TcCoe Idealize.SL.Sem Idealize.ShloMosaic.StableHlo Idealize.ShloMosaic.ValueIdx

variable {F : FTy → Type} [FloatOps F]

/-! ## Joins as functions of their pieces -/

/-- Two pieces joined along the last axis, as a function of the two pieces. -/
def cat2 (a b : IVec S64x1024x1 32) : IVec S64x1024x2 32 :=
  concatenate S64x1024x2 2 [⟨S64x1024x1, a⟩, ⟨S64x1024x1, b⟩] concatenates_S64x1024x1_S64x1024x1_S64x1024x2_d2
/-- Four pieces joined along the last axis, as a function of the four pieces. -/
def cat4 (a b c d : FVec F S64x1024x1 .f32) : FVec F S64x1024x4 .f32 :=
  concatenate S64x1024x4 2 [⟨S64x1024x1, a⟩, ⟨S64x1024x1, b⟩, ⟨S64x1024x1, c⟩, ⟨S64x1024x1, d⟩] concatenates_S64x1024x1_S64x1024x1_S64x1024x1_S64x1024x1_S64x1024x4_d2

theorem cat2_fold (a b : IVec S64x1024x1 32) :
    concatenate S64x1024x2 2 [⟨S64x1024x1, a⟩, ⟨S64x1024x1, b⟩] concatenates_S64x1024x1_S64x1024x1_S64x1024x2_d2 = cat2 a b := rfl

/-- The four-piece join writes its result from the four pieces' buffers. -/
theorem v48_step (h1 h2) (W : Valuation τ sig (Elt F)) :
    (nary (τ := τ) ![main_v44, main_v45, main_v46, main_v47] main_v48 (fun u => concatenate S64x1024x4 2 [⟨S64x1024x1, u 0⟩, ⟨S64x1024x1, u 1⟩, ⟨S64x1024x1, u 2⟩, ⟨S64x1024x1, u 3⟩] concatenates_S64x1024x1_S64x1024x1_S64x1024x1_S64x1024x1_S64x1024x4_d2) h1 h2).result W (no_index (Proc.devRef .tc main_v48))
      = cat4 (W (Proc.devRef .tc main_v44)) (W (Proc.devRef .tc main_v45)) (W (Proc.devRef .tc main_v46)) (W (Proc.devRef .tc main_v47)) :=
  (nary_result _ _ _ h1 h2 W).trans rfl

/-! ## The third stretch of host operations, from any memory -/

set_option maxHeartbeats 8000000 in
set_option maxRecDepth 8192 in
/-- The pose features: the reference's chain of operations applied to the buffer of clipped navigation indices. -/
theorem pe_after (W : Valuation τ sig (Elt F)) :
    StableHlo.after hostOps0_2 W (Proc.devRef .tc main_v48)
      = Cert.ReferenceIdeal.Read.val_main_v66 (F := F) (W (Proc.devRef .tc main_v0)) (W (Proc.devRef .tc main_arg1)) (W (Proc.devRef .tc main_arg3)) := by
  simp only [hostOps0_2]
  simp (disch := decide) only [after_cons, after_nil, v48_step, cat2_fold,
      nullary_result', unary_result', binary_result', ternary_result', quaternary_result', reshape_result',
      nullary_result_ne', unary_result_ne', binary_result_ne', ternary_result_ne', quaternary_result_ne', reshape_result_ne',
      nary_result_ne']
  rfl

set_option maxHeartbeats 8000000 in
/-- The navigation column: the clipped indices with a unit axis appended. -/
theorem navi_after (W : Valuation τ sig (Elt F)) :
    StableHlo.after hostOps0_2 W (Proc.devRef .tc main_v49)
      = broadcastInDim S64x1024x1 ![0, 1] bcast_S64x1024_S64x1024x1_0_1 (W (Proc.devRef .tc main_v0)) := by
  simp only [hostOps0_2]
  simp (disch := decide) only [after_cons, after_nil, v48_step, cat2_fold,
      nullary_result', unary_result', binary_result', ternary_result', quaternary_result', reshape_result',
      nullary_result_ne', unary_result_ne', binary_result_ne', ternary_result_ne', quaternary_result_ne', reshape_result_ne',
      nary_result_ne']

set_option maxHeartbeats 8000000 in
/-- The three biases as rows. -/
theorem bmp_after (W : Valuation τ sig (Elt F)) :
    StableHlo.after hostOps0_2 W (Proc.devRef .tc main_v50) = (fun i => shapeCast S1x256 (W (Proc.devRef .tc main_arg5)) shapeCasts_S256_S1x256 i) := by
  simp only [hostOps0_2]
  simp (disch := decide) only [after_cons, after_nil, v48_step, cat2_fold,
      nullary_result', unary_result', binary_result', ternary_result', quaternary_result', reshape_result',
      nullary_result_ne', unary_result_ne', binary_result_ne', ternary_result_ne', quaternary_result_ne', reshape_result_ne',
      nary_result_ne']
  rfl
set_option maxHeartbeats 8000000 in
theorem bemb_after (W : Valuation τ sig (Elt F)) :
    StableHlo.after hostOps0_2 W (Proc.devRef .tc main_v51) = (fun i => shapeCast S1x256 (W (Proc.devRef .tc main_arg7)) shapeCasts_S256_S1x256 i) := by
  simp only [hostOps0_2]
  simp (disch := decide) only [after_cons, after_nil, v48_step, cat2_fold,
      nullary_result', unary_result', binary_result', ternary_result', quaternary_result', reshape_result',
      nullary_result_ne', unary_result_ne', binary_result_ne', ternary_result_ne', quaternary_result_ne', reshape_result_ne',
      nary_result_ne']
  rfl
set_option maxHeartbeats 8000000 in
theorem bpe_after (W : Valuation τ sig (Elt F)) :
    StableHlo.after hostOps0_2 W (Proc.devRef .tc main_v52) = (fun i => shapeCast S1x256 (W (Proc.devRef .tc main_arg9)) shapeCasts_S256_S1x256 i) := by
  simp only [hostOps0_2]
  simp (disch := decide) only [after_cons, after_nil, v48_step, cat2_fold,
      nullary_result', unary_result', binary_result', ternary_result', quaternary_result', reshape_result',
      nullary_result_ne', unary_result_ne', binary_result_ne', ternary_result_ne', quaternary_result_ne', reshape_result_ne',
      nary_result_ne']
  rfl

/-! ## The first two stretches: the clip -/

variable (m : (ℓ : Loc nD τ sig) → Buf (Elt F) ℓ)

/-- The clip of the navigation indices into the map's range. -/
def clip (x : IVec S64x1024 32) : IVec S64x1024 32 :=
  minsi (broadcastInDim S64x1024 ![] bcast_S_S64x1024 (constantI S_ 32 1023#32))
    (maxsi (broadcastInDim S64x1024 ![] bcast_S_S64x1024 (constantI S_ 32 0#32)) x)

/-- Running one list of operations after another is running their concatenation. -/
theorem after_append (l₁ l₂ : List (HloOp τ sig (Elt F))) (f : Valuation τ sig (Elt F)) :
    StableHlo.after (l₁ ++ l₂) f = StableHlo.after l₂ (StableHlo.after l₁ f) := by
  induction l₁ generalizing f with
  | nil => rfl
  | cons op l ih => simp only [List.cons_append, after_cons]; exact ih _

/-- Core `c`'s memory after the first two stretches (the two constants and the clip). -/
abbrev W (c : Dev nD) : Valuation τ sig (Elt F) :=
  StableHlo.after hostOps0_1 (StableHlo.after hostOps0 (fun b => m (c, b)))

theorem V_split (c : Dev nD) (b : Ref sig .tc) : V m c b = StableHlo.after hostOps0_2 (W m c) (Proc.devRef .tc b) := by
  show StableHlo.after (List.flatten [hostOps0, hostOps0_1, hostOps0_2]) (fun b => m (c, b)) (Proc.devRef .tc b) = _
  simp only [List.flatten_cons, List.flatten_nil, List.append_nil, after_append]

set_option maxHeartbeats 4000000 in
theorem W_v0 (c : Dev nD) : W m c (Proc.devRef .tc main_v0) = clip (m ((c : Thread nD τ).loc main_arg0)) := by
  simp only [W, hostOps0, hostOps0_1]
  after_results
  rfl

set_option maxHeartbeats 4000000 in
theorem W_arg1 (c : Dev nD) : W m c (Proc.devRef .tc main_arg1) = m ((c : Thread nD τ).loc main_arg1) := by
  simp only [W, hostOps0, hostOps0_1]
  after_results
set_option maxHeartbeats 4000000 in
theorem W_arg3 (c : Dev nD) : W m c (Proc.devRef .tc main_arg3) = m ((c : Thread nD τ).loc main_arg3) := by
  simp only [W, hostOps0, hostOps0_1]
  after_results
set_option maxHeartbeats 4000000 in
theorem W_arg5 (c : Dev nD) : W m c (Proc.devRef .tc main_arg5) = m ((c : Thread nD τ).loc main_arg5) := by
  simp only [W, hostOps0, hostOps0_1]
  after_results
set_option maxHeartbeats 4000000 in
theorem W_arg7 (c : Dev nD) : W m c (Proc.devRef .tc main_arg7) = m ((c : Thread nD τ).loc main_arg7) := by
  simp only [W, hostOps0, hostOps0_1]
  after_results
set_option maxHeartbeats 4000000 in
theorem W_arg9 (c : Dev nD) : W m c (Proc.devRef .tc main_arg9) = m ((c : Thread nD τ).loc main_arg9) := by
  simp only [W, hostOps0, hostOps0_1]
  after_results

/-! ## What the region finds -/

/-- The pose features the region reads. -/
theorem V_pe (c : Dev nD) : V m c main_v48
    = Cert.ReferenceIdeal.Read.val_main_v66 (F := F) (clip (m ((c : Thread nD τ).loc main_arg0))) (m ((c : Thread nD τ).loc main_arg1)) (m ((c : Thread nD τ).loc main_arg3)) := by
  rw [V_split, pe_after, W_v0, W_arg1, W_arg3]

/-- The navigation column the region reads, at an entry. -/
theorem V_navi_apply (c : Dev nD) (b : Fin 64) (a : Fin 1024) (k : Fin 1) :
    (V m c main_v49 : S64x1024x1.Idx → BitVec 32) (ix3 b a k) = clip (m ((c : Thread nD τ).loc main_arg0)) (ix2 b a) := by
  rw [V_split, navi_after, W_v0]
  refine broadcastInDim_apply _ _ _ _ (ix2 b a) fun ax => ?_
  match ax with
  | ⟨0, _⟩ => rfl
  | ⟨1, _⟩ => rfl

/-- The bias rows the region reads, at an entry. -/
theorem V_bmp_apply (c : Dev nD) (j : Fin 1) (h : Fin 256) :
    (V m c main_v50 : S1x256.Idx → Elt F .f32) (ix2 j h) = (m ((c : Thread nD τ).loc main_arg5) : S256.Idx → Elt F .f32) (ix1 h) := by
  rw [V_split, bmp_after, W_arg5]
  exact shapeCast_a_1a_apply _ _ j h
theorem V_bemb_apply (c : Dev nD) (j : Fin 1) (h : Fin 256) :
    (V m c main_v51 : S1x256.Idx → Elt F .f32) (ix2 j h) = (m ((c : Thread nD τ).loc main_arg7) : S256.Idx → Elt F .f32) (ix1 h) := by
  rw [V_split, bemb_after, W_arg7]
  exact shapeCast_a_1a_apply _ _ j h
theorem V_bpe_apply (c : Dev nD) (j : Fin 1) (h : Fin 256) :
    (V m c main_v52 : S1x256.Idx → Elt F .f32) (ix2 j h) = (m ((c : Thread nD τ).loc main_arg9) : S256.Idx → Elt F .f32) (ix1 h) := by
  rw [V_split, bpe_after, W_arg9]
  exact shapeCast_a_1a_apply _ _ j h

/-! ## In range, the clip does nothing -/

theorem clip_word (w : BitVec 32) (h0 : 0 ≤ w.toInt) (h1 : w.toInt < 1024) :
    IntOp.minsi 1023#32 (IntOp.maxsi 0#32 w) = w := by
  have e1 : IntOp.maxsi 0#32 w = w := by
    unfold IntOp.maxsi
    have : w.slt 0#32 = false := by
      unfold BitVec.slt; rw [BitVec.toInt_zero]; exact decide_eq_false (by omega)
    rw [this]; rfl
  rw [e1]
  unfold IntOp.minsi
  have : (1023#32 : BitVec 32).slt w = false := by
    unfold BitVec.slt
    have h : (1023#32 : BitVec 32).toInt = 1023 := by decide
    rw [h]; exact decide_eq_false (by omega)
  rw [this]; rfl

theorem clip_of_range (x : IVec S64x1024 32) (hr : ∀ i : S64x1024.Idx, 0 ≤ (x i).toInt ∧ (x i).toInt < 1024) : clip x = x := by
  funext i
  exact clip_word (x i) (hr i).1 (hr i).2

end Cert.KernelIdeal.HostStage

end
-- ==== Proof.Spec.lean ====
/-
  What both programs compute, as ONE function of the argument arrays, index by index over the extended reals.

  For scene `b`, agent `a` and hidden column `h` the result is
      (∑ₖ feat[b, dest(b,a), k] · W_mp[k, h] + b_mp[h])
    + (∑ₚ max(∑_f pe[b, a, f] · W_emb[f, p] + b_emb[p], 0) · W_pe[p, h] + b_pe[h]),
  where `dest(b,a)` is the map token the agent navigates to (its navigation index read signed and clamped into the
  map's range) and `pe` is the agent's four relative-pose features.  The kernel reaches the first sum through a
  one-hot matrix product and the reference through a gather of rows; they agree because a one-hot row selects
  exactly one term of the sum, and `0 · x = 0` for every extended real `x`.
-/
import Idealize.ShloMosaic.PureOps.Ideal
import Idealize.ShloMosaic.PureOps.Ideal.Laws
import Idealize.ShloMosaic.Lib.ValueIdx

noncomputable section

namespace Cert.NaviSpec

open Idealize.ShloMosaic Idealize.ShloMosaic.ValueIdx
open scoped BigOperators

abbrev SNavi : Shape := ⟨2, ![64, 1024]⟩
abbrev SFeat : Shape := ⟨3, ![64, 1024, 256]⟩
abbrev SPe : Shape := ⟨3, ![64, 1024, 4]⟩
abbrev SW : Shape := ⟨2, ![256, 256]⟩
abbrev SB : Shape := ⟨1, ![256]⟩
abbrev SE : Shape := ⟨2, ![4, 256]⟩

/-- A navigation word read signed and clamped into the map's 1024 tokens. -/
def tok (w : BitVec 32) : Fin 1024 := ⟨min w.toInt.toNat 1023, by omega⟩

/-- The pose embedding before its ReLU, at one agent: its four pose features against the four rows of `W_emb`,
    plus the bias. -/
def embOf (pe4 : Fin 4 → EReal) (We : Fin 4 → Fin 256 → EReal) (be : Fin 256 → EReal) (p : Fin 256) : EReal :=
  (∑ f : Fin 4, pe4 f * We f p) + be p

/-- One entry of the result from the destination token's feature row `row` and the agent's embedding `e`:
    the map projection of the row plus the pose projection of the rectified embedding. -/
def entry (row e : Fin 256 → EReal) (Wmp : Fin 256 → Fin 256 → EReal) (bmp : Fin 256 → EReal)
    (Wpe : Fin 256 → Fin 256 → EReal) (bpe : Fin 256 → EReal) (h : Fin 256) : EReal :=
  ((∑ k : Fin 256, row k * Wmp k h) + bmp h)
    + ((∑ p : Fin 256, max (e p) (Ideal.ofBits .f32 0x00000000#32) * Wpe p h) + bpe h)

/-- The whole result array. -/
def G (navi : IVec SNavi 32) (pe : FVec Ideal SPe .f32) (feat : FVec Ideal SFeat .f32)
    (Wmp : FVec Ideal SW .f32) (bmp : FVec Ideal SB .f32) (Wemb : FVec Ideal SE .f32) (bemb : FVec Ideal SB .f32)
    (Wpe : FVec Ideal SW .f32) (bpe : FVec Ideal SB .f32) : FVec Ideal SFeat .f32 :=
  fun i => entry (fun k => feat (ix3 (i 0) (tok (navi (ix2 (i 0) (i 1)))) k))
    (embOf (fun f => pe (ix3 (i 0) (i 1) f)) (fun f p => Wemb (ix2 f p)) (fun p => bemb (ix1 p)))
    (fun k h => Wmp (ix2 k h)) (fun h => bmp (ix1 h)) (fun p h => Wpe (ix2 p h)) (fun h => bpe (ix1 h)) (i 2)

/-- A one-hot row selects one term: the sum over `j` of `[j = t] · x j` is `x t`, at the extended reals with no
    finiteness needed (`0 · x = 0` also at the infinities). -/
theorem sum_onehot {n : Nat} (t : Fin n) (x : Fin n → EReal) :
    (∑ j : Fin n, (if j = t then (1 : EReal) else 0) * x j) = x t := by
  rw [Finset.sum_eq_single t]
  · rw [if_pos rfl, one_mul]
  · intro j _ hj; rw [if_neg hj, zero_mul]
  · intro h; exact absurd (Finset.mem_univ t) h

/-- In range, the clamp does nothing: the token is the word's own value. -/
theorem tok_val {w : BitVec 32} (h0 : 0 ≤ w.toInt) (h1 : w.toInt < 1024) : ((tok w : Fin 1024) : Nat) = w.toInt.toNat := by
  show min w.toInt.toNat 1023 = _
  omega

end Cert.NaviSpec

end
-- ==== Proof.Payload.lean ====
/-
  The two stored values of the kernel body, read at one entry, at the extended reals.

  Scene `s` of a grid point's pair stores, at agent `a` and hidden column `h`, the map projection of the feature
  row the agent's navigation index selects plus the pose projection of its rectified embedding
  (`Cert.NaviSpec.entry`).  The row is selected by a one-hot matrix product: row `a` of the one-hot matrix is
  `[j = idx a]`, so its product with the 1024 feature rows is the one row `idx a`; the embedding is the four
  explicit products of the pose features with the rows of `W_emb`, which is the sum over `Fin 4`.
-/
import proofs.«405649_j52355651338944_3_alg».proof.Proof.Gen.KernelIdeal.Skeleton
import proofs.«405649_j52355651338944_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Cert.NaviSpec
open Idealize.ShloMosaic Idealize.ShloMosaic.ValueIdx
open scoped BigOperators

/-! ## Pointwise operations at an entry -/

/-- A sum of two [1024,256] arrays at an entry. -/
theorem add_at (x y : FVec Ideal S1024x256 .f32) (a : Fin 1024) (h : Fin 256) :
    addf x y (ix2 a h) = x (ix2 a h) + y (ix2 a h) := rfl

/-- A product of two [1024,256] arrays at an entry. -/
theorem mul_at (x y : FVec Ideal S1024x256 .f32) (a : Fin 1024) (h : Fin 256) :
    mulf x y (ix2 a h) = x (ix2 a h) * y (ix2 a h) := rfl

/-- The maximum with the zero word's value at an entry. -/
theorem relu_at (x : FVec Ideal S1024x256 .f32) (a : Fin 1024) (h : Fin 256) :
    maximumf x (broadcast S1024x256 (Scalar.ofBits (F := Ideal) .f32 0x00000000#32)) (ix2 a h)
      = max (x (ix2 a h)) (Ideal.ofBits .f32 0x00000000#32) := rfl

/-- A change of float format is the identity on extended reals: a [1024,256] array. -/
theorem trunc_at (x : FVec Ideal S1024x256 .f32) (hb : FTy.bits .bf16 < FTy.bits .f32) (a : Fin 1024) (h : Fin 256) :
    (truncf .bf16 x hb : FVec Ideal S1024x256 .bf16) (ix2 a h) = x (ix2 a h) := rfl

/-- The same for a [256,256] weight matrix. -/
theorem truncW_at (x : FVec Ideal S256x256 .f32) (hb : FTy.bits .bf16 < FTy.bits .f32) (k h : Fin 256) :
    (truncf .bf16 x hb : FVec Ideal S256x256 .bf16) (ix2 k h) = x (ix2 k h) := rfl

/-- The same for the [1024,1024] one-hot matrix. -/
theorem truncH_at (x : FVec Ideal S1024x1024 .f32) (hb : FTy.bits .bf16 < FTy.bits .f32) (a j : Fin 1024) :
    (truncf .bf16 x hb : FVec Ideal S1024x1024 .bf16) (ix2 a j) = x (ix2 a j) := rfl

/-! ## Layout operations at an entry -/

/-- A bias row broadcast down the 1024 rows reads the row's entry at the column. -/
theorem rowB_at (v : FVec Ideal S1x256 .f32) (hb : S1x256.Broadcasts S1024x256) (a : Fin 1024) (h : Fin 256) :
    broadcastTo S1024x256 v hb (ix2 a h) = v (ix2 0 h) :=
  broadcastTo_1b_ab_apply v hb a h

/-- A pose column broadcast over the 256 columns reads the column's entry at the row. -/
theorem colB_at (v : FVec Ideal S1024x1 .f32) (hb : S1024x1.Broadcasts S1024x256) (a : Fin 1024) (h : Fin 256) :
    broadcastTo S1024x256 v hb (ix2 a h) = v (ix2 a 0) := by
  refine broadcastTo_apply v hb (ix2 a h) (ix2 a (0 : Fin 1)) fun ax => ?_
  match ax with
  | ⟨0, _⟩ => rfl
  | ⟨1, _⟩ => rfl

/-- A bias row cast to its own shape is itself. -/
theorem bias_self (v : FVec Ideal S1x256 .f32) (hs : S1x256.ShapeCasts S1x256) : shapeCast S1x256 v hs = v :=
  shapeCast_self v hs

/-- The pose block [1,1024,4] viewed [1024,4]: entry `(a, q)` is entry `(0, a, q)`. -/
theorem pose_at (p : FVec Ideal S1x1024x4 .f32) (hs : S1x1024x4.ShapeCasts S1024x4) (a : Fin 1024) (q : Fin 4) :
    shapeCast S1024x4 p hs (ix2 a q) = p (ix3 0 a q) :=
  shapeCast_1ab_ab_apply p hs a q

/-- The feature block [1,1024,256] viewed [1024,256]: entry `(a, k)` is entry `(0, a, k)`. -/
theorem feat_at (f : FVec Ideal S1x1024x256 .f32) (hs : S1x1024x256.ShapeCasts S1024x256) (a : Fin 1024) (k : Fin 256) :
    shapeCast S1024x256 f hs (ix2 a k) = f (ix3 0 a k) :=
  shapeCast_1ab_ab_apply f hs a k

/-- The result [1024,256] viewed [1,1024,256]: entry `(0, a, h)` is entry `(a, h)`. -/
theorem out_at (x : FVec Ideal S1024x256 .f32) (hs : S1024x256.ShapeCasts S1x1024x256) (a : Fin 1024) (h : Fin 256) :
    shapeCast S1x1024x256 x hs (ix3 0 a h) = x (ix2 a h) :=
  shapeCast_ab_1ab_apply x hs 0 a h

/-- Column `o` of the pose block, as a [1024,1] column, at row `a`. -/
theorem poseCol_at (x : FVec Ideal S1024x4 .f32) (o : Nat) (ho : o < 4) (hs : S1024x4.Slices ![0, o] S1024x1) (a : Fin 1024) :
    extractStridedSlice S1024x1 ![0, o] x hs (ix2 a 0) = x (ix2 a ⟨o, ho⟩) :=
  slice2_axis1_apply o x hs a 0 ⟨o, ho⟩ rfl

/-- Row `o` of the embedding weights, as a [1,256] row, at column `c`. -/
theorem embRow_at (e : FVec Ideal S4x256 .f32) (o : Nat) (ho : o < 4) (hs : S4x256.Slices ![o, 0] S1x256) (c : Fin 256) :
    extractStridedSlice S1x256 ![o, 0] e hs (ix2 0 c) = e (ix2 ⟨o, ho⟩ c) :=
  slice2_axis0_apply o e hs 0 c ⟨o, ho⟩ rfl

/-! ## The two matrix products at an entry -/

/-- The left operand's index of the [1024,256] by [256,256] product: its row is the result's row. -/
theorem lhsW_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
/-- Its column is the contraction coordinate. -/
theorem lhsW_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- The right operand's row is the contraction coordinate. -/
theorem rhsW_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Its column is the result's column. -/
theorem rhsW_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A [1024,256] by [256,256] product into the zero accumulator, at an entry: the sum over the 256 inner columns. -/
theorem mmW_at (x : FVec Ideal S1024x256 .bf16) (w : FVec Ideal S256x256 .bf16) (a : Fin 1024) (h : Fin 256) :
    matmul dot_S1024x256_S256x256_S1024x256_1_0_0_1_n_n none x w (constant (F := Ideal) S1024x256 .f32 0x00000000#32) (ix2 a h)
      = ∑ k : Fin 256, x (ix2 a k) * w (ix2 k h) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 a h) ((contrEquiv1 dot_S1024x256_S256x256_S1024x256_1_0_0_1_n_n 256 rfl rfl).symm k) = ix2 a k := funext fun ax => Fin.ext (by
    match ax with
    | ⟨0, _⟩ => exact lhsW_0 _ _
    | ⟨1, _⟩ => exact (lhsW_1 _ _).trans hk)
  have er : dot_S1024x256_S256x256_S1024x256_1_0_0_1_n_n.rhsIdx (ix2 a h) ((contrEquiv1 dot_S1024x256_S256x256_S1024x256_1_0_0_1_n_n 256 rfl rfl).symm k) = ix2 k h := funext fun ax => Fin.ext (by
    match ax with
    | ⟨0, _⟩ => exact (rhsW_0 _ _).trans hk
    | ⟨1, _⟩ => exact rhsW_1 _ _)
  rw [el, er]

/-- The left operand's index of the [1024,1024] by [1024,256] product: its row is the result's row. -/
theorem lhsH_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
/-- Its column is the contraction coordinate. -/
theorem lhsH_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
/-- The right operand's row is the contraction coordinate. -/
theorem rhsH_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
/-- Its column is the result's column. -/
theorem rhsH_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A [1024,1024] by [1024,256] product into the zero accumulator, at an entry: the sum over the 1024 inner columns. -/
theorem mmH_at (x : FVec Ideal S1024x1024 .bf16) (y : FVec Ideal S1024x256 .bf16) (a : Fin 1024) (h : Fin 256) :
    matmul dot_S1024x1024_S1024x256_S1024x256_1_0_0_1_n_n none x y (constant (F := Ideal) S1024x256 .f32 0x00000000#32) (ix2 a h)
      = ∑ j : Fin 1024, x (ix2 a j) * y (ix2 j h) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 a h) ((contrEquiv1 dot_S1024x1024_S1024x256_S1024x256_1_0_0_1_n_n 1024 rfl rfl).symm k) = ix2 a k := funext fun ax => Fin.ext (by
    match ax with
    | ⟨0, _⟩ => exact lhsH_0 _ _
    | ⟨1, _⟩ => exact (lhsH_1 _ _).trans hk)
  have er : dot_S1024x1024_S1024x256_S1024x256_1_0_0_1_n_n.rhsIdx (ix2 a h) ((contrEquiv1 dot_S1024x1024_S1024x256_S1024x256_1_0_0_1_n_n 1024 rfl rfl).symm k) = ix2 k h := funext fun ax => Fin.ext (by
    match ax with
    | ⟨0, _⟩ => exact (rhsH_0 _ _).trans hk
    | ⟨1, _⟩ => exact rhsH_1 _ _)
  rw [el, er]

/-! ## The one-hot matrix at an entry -/

/-- A column broadcast over many columns reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison bit widened and converted: one where the words agree, zero elsewhere. -/
theorem onehot_word (x y : BitVec 32) :
    ((((IntOp.cmpi .eq x y).setWidth 32).toInt : ℝ) : EReal) = if x = y then (1 : EReal) else 0 := by
  by_cases h : x = y
  · rw [if_pos h]; subst h; simp [IntOp.cmpi]
  · rw [if_neg h]
    have hb : (x == y) = false := beq_eq_false_iff_ne.mpr h
    simp [IntOp.cmpi, hb]

/-- An index word in range equals the column number exactly at its token. -/
theorem word_eq_iff (w : BitVec 32) (j : Fin 1024) (h0 : 0 ≤ w.toInt) (h1 : w.toInt < 1024) :
    w = BitVec.ofNat 32 j.val ↔ j = tok w := by
  have e := BitVec.toInt_eq_toNat_cond w
  have hw := w.isLt
  have hj := j.isLt
  have ht := tok_val h0 h1
  constructor
  · intro h
    apply Fin.ext
    rw [ht]
    have : w.toNat = j.val := by rw [h, BitVec.toNat_ofNat]; omega
    omega
  · intro h
    apply BitVec.eq_of_toNat_eq
    rw [BitVec.toNat_ofNat, h, ht]
    omega

/-- Row `a` of the one-hot matrix against any row of words that reads the column number: one in the column of the
    agent's token, zero elsewhere. -/
theorem onehot_word_at (n : Vec Ideal S1x1024x1 .i32) (io : IVec S1x1024 32) (hs : S1x1024x1.ShapeCasts S1024x1)
    (hb1 : S1024x1.Broadcasts S1024x1024) (hb2 : S1x1024.Broadcasts S1024x1024) (hlt : 1 < 32)
    (hio : ∀ j : Fin 1024, io (ix2 0 j) = BitVec.ofNat 32 j.val) (a j : Fin 1024)
    (hr : 0 ≤ (n (ix3 0 a 0)).toInt ∧ (n (ix3 0 a 0)).toInt < 1024) :
    (sitofp .f32 (extui 32 (cmpi .eq (broadcastTo S1024x1024 (shapeCast S1024x1 n hs) hb1)
        (broadcastTo S1024x1024 io hb2)) hlt) : FVec Ideal S1024x1024 .f32) (ix2 a j)
      = if j = tok (n (ix3 0 a 0)) then (1 : EReal) else 0 := by
  have e1 : broadcastTo S1024x1024 (shapeCast S1024x1 n hs) hb1 (ix2 a j) = n (ix3 0 a 0) :=
    (broadcastTo_a1_ab_apply _ hb1 a j).trans (shapeCast_1ab_ab_apply n hs a 0)
  have e2 : broadcastTo S1024x1024 io hb2 (ix2 a j) = BitVec.ofNat 32 j.val :=
    (broadcastTo_1b_ab_apply io hb2 a j).trans (hio j)
  show ((((IntOp.cmpi .eq (broadcastTo S1024x1024 (shapeCast S1024x1 n hs) hb1 (ix2 a j))
      (broadcastTo S1024x1024 io hb2 (ix2 a j))).setWidth 32).toInt : ℝ) : EReal) = _
  rw [e1, e2, onehot_word]
  exact if_congr (word_eq_iff _ j hr.1 hr.2) rfl rfl

/-- The lane counter along the columns reads the column number. -/
theorem iota_at (hi : S1x1024.Iotas .tc 32 [1]) (j : Fin 1024) :
    iota .tc S1x1024 32 [1] hi (ix2 0 j) = BitVec.ofNat 32 j.val :=
  iota_single_apply .tc S1x1024 32 1 hi (ix2 0 j)

/-- Row `a` of the one-hot matrix built from the lane counter. -/
theorem onehot_at (n : Vec Ideal S1x1024x1 .i32) (hi : S1x1024.Iotas .tc 32 [1]) (hs : S1x1024x1.ShapeCasts S1024x1)
    (hb1 : S1024x1.Broadcasts S1024x1024) (hb2 : S1x1024.Broadcasts S1024x1024) (hlt : 1 < 32) (a j : Fin 1024)
    (hr : 0 ≤ (n (ix3 0 a 0)).toInt ∧ (n (ix3 0 a 0)).toInt < 1024) :
    (sitofp .f32 (extui 32 (cmpi .eq (broadcastTo S1024x1024 (shapeCast S1024x1 n hs) hb1)
        (broadcastTo S1024x1024 (iota .tc S1x1024 32 [1] hi) hb2)) hlt) : FVec Ideal S1024x1024 .f32) (ix2 a j)
      = if j = tok (n (ix3 0 a 0)) then (1 : EReal) else 0 :=
  onehot_word_at n _ hs hb1 hb2 hlt (iota_at hi) a j hr

/-! ## The pose columns and the embedding rows -/

/-- The four pose columns at row `a`. -/
theorem poseCol0_at (x : FVec Ideal S1024x4 .f32) (hs : S1024x4.Slices ![0, 0] S1024x1) (a : Fin 1024) :
    extractStridedSlice S1024x1 ![0, 0] x hs (ix2 a 0) = x (ix2 a 0) := poseCol_at x 0 (by decide) hs a
theorem poseCol1_at (x : FVec Ideal S1024x4 .f32) (hs : S1024x4.Slices ![0, 1] S1024x1) (a : Fin 1024) :
    extractStridedSlice S1024x1 ![0, 1] x hs (ix2 a 0) = x (ix2 a 1) := poseCol_at x 1 (by decide) hs a
theorem poseCol2_at (x : FVec Ideal S1024x4 .f32) (hs : S1024x4.Slices ![0, 2] S1024x1) (a : Fin 1024) :
    extractStridedSlice S1024x1 ![0, 2] x hs (ix2 a 0) = x (ix2 a 2) := poseCol_at x 2 (by decide) hs a
theorem poseCol3_at (x : FVec Ideal S1024x4 .f32) (hs : S1024x4.Slices ![0, 3] S1024x1) (a : Fin 1024) :
    extractStridedSlice S1024x1 ![0, 3] x hs (ix2 a 0) = x (ix2 a 3) := poseCol_at x 3 (by decide) hs a

/-- The four embedding rows at column `c`. -/
theorem embRow0_at (e : FVec Ideal S4x256 .f32) (hs : S4x256.Slices ![0, 0] S1x256) (c : Fin 256) :
    extractStridedSlice S1x256 ![0, 0] e hs (ix2 0 c) = e (ix2 0 c) := embRow_at e 0 (by decide) hs c
theorem embRow1_at (e : FVec Ideal S4x256 .f32) (hs : S4x256.Slices ![1, 0] S1x256) (c : Fin 256) :
    extractStridedSlice S1x256 ![1, 0] e hs (ix2 0 c) = e (ix2 1 c) := embRow_at e 1 (by decide) hs c
theorem embRow2_at (e : FVec Ideal S4x256 .f32) (hs : S4x256.Slices ![2, 0] S1x256) (c : Fin 256) :
    extractStridedSlice S1x256 ![2, 0] e hs (ix2 0 c) = e (ix2 2 c) := embRow_at e 2 (by decide) hs c
theorem embRow3_at (e : FVec Ideal S4x256 .f32) (hs : S4x256.Slices ![3, 0] S1x256) (c : Fin 256) :
    extractStridedSlice S1x256 ![3, 0] e hs (ix2 0 c) = e (ix2 3 c) := embRow_at e 3 (by decide) hs c

/-! ## The two halves of a stored value -/

/-- The map projection of the selected feature row, plus its bias. -/
theorem map_at (w0 : Vec Ideal S256x256 .f32) (b5 : Vec Ideal S1x256 .f32) (n : Vec Ideal S1x1024x1 .i32)
    (f : Vec Ideal S1x1024x256 .f32) (a : Fin 1024) (h : Fin 256)
    (hr : 0 ≤ (n (ix3 0 a 0)).toInt ∧ (n (ix3 0 a 0)).toInt < 1024) :
    k0_pay12 (F := Ideal) (k0_pay2 w0) (k0_pay4 b5) (iota .tc S1x1024 32 [1] iota_S1x1024_d1_w32) n f (ix2 a h)
      = (∑ k : Fin 256, f (ix3 0 (tok (n (ix3 0 a 0))) k) * w0 (ix2 k h)) + b5 (ix2 0 h) := by
  unfold k0_pay12 k0_pay2 k0_pay4
  simp only [add_at, mmW_at, trunc_at, truncW_at, mmH_at, truncH_at, rowB_at, bias_self, feat_at,
    onehot_at n _ _ _ _ _ a _ hr, sum_onehot]

/-- A stored value: the map half plus the pose projection of the rectified embedding. -/
theorem store_at (w2 : Vec Ideal S256x256 .f32) (e : Vec Ideal S4x256 .f32) (b7 b9 : Vec Ideal S1x256 .f32)
    (m : FVec Ideal S1024x256 .f32) (p : Vec Ideal S1x1024x4 .f32) (a : Fin 1024) (h : Fin 256) :
    k0_pay1 (F := Ideal) (k0_pay3 w2) e (k0_pay5 b7) (k0_pay6 b9) m p (ix3 0 a h)
      = m (ix2 a h) + ((∑ k : Fin 256, max (embOf (fun q => p (ix3 0 a q)) (fun q c => e (ix2 q c)) (fun c => b7 (ix2 0 c)) k)
            (Ideal.ofBits .f32 0x00000000#32) * w2 (ix2 k h)) + b9 (ix2 0 h)) := by
  unfold k0_pay1 k0_pay3 k0_pay5 k0_pay6
  simp only [out_at, add_at, mmW_at, trunc_at, truncW_at, relu_at, mul_at, rowB_at, colB_at, bias_self, pose_at,
    poseCol0_at, poseCol1_at, poseCol2_at, poseCol3_at, embRow0_at, embRow1_at, embRow2_at, embRow3_at]
  unfold embOf
  simp only [Fin.sum_univ_four]

/-- The first store (scene 0 of the pair), read at agent `a`, column `h`. -/
theorem scene0_apply (w0 w2 : Vec Ideal S256x256 .f32) (e : Vec Ideal S4x256 .f32) (b5 b7 b9 : Vec Ideal S1x256 .f32)
    (n : Vec Ideal S1x1024x1 .i32) (f : Vec Ideal S1x1024x256 .f32) (p : Vec Ideal S1x1024x4 .f32)
    (a : Fin 1024) (h : Fin 256)
    (hr : 0 ≤ (n (ix3 0 a 0)).toInt ∧ (n (ix3 0 a 0)).toInt < 1024) :
    k0_pay11 (F := Ideal) (k0_pay3 w2) e (k0_pay5 b7) (k0_pay6 b9) (k0_pay7 w0 b5 n f) (k0_pay8 p) (k0_pay9 e p) (k0_pay10 p) (ix3 0 a h)
      = entry (fun k => f (ix3 0 (tok (n (ix3 0 a 0))) k))
          (embOf (fun q => p (ix3 0 a q)) (fun q c => e (ix2 q c)) (fun c => b7 (ix2 0 c)))
          (fun k c => w0 (ix2 k c)) (fun c => b5 (ix2 0 c)) (fun k c => w2 (ix2 k c)) (fun c => b9 (ix2 0 c)) h := by
  have e0 : k0_pay11 (F := Ideal) (k0_pay3 w2) e (k0_pay5 b7) (k0_pay6 b9) (k0_pay7 w0 b5 n f) (k0_pay8 p) (k0_pay9 e p) (k0_pay10 p)
      = k0_pay1 (F := Ideal) (k0_pay3 w2) e (k0_pay5 b7) (k0_pay6 b9)
          (k0_pay12 (k0_pay2 w0) (k0_pay4 b5) (iota .tc S1x1024 32 [1] iota_S1x1024_d1_w32) n f) p := rfl
  rw [e0, store_at, map_at w0 b5 n f a h hr]
  rfl

/-- The second store (scene 1 of the pair), read at agent `a`, column `h`. -/
theorem scene1_apply (w0 w2 : Vec Ideal S256x256 .f32) (e : Vec Ideal S4x256 .f32) (b5 b7 b9 : Vec Ideal S1x256 .f32)
    (n : Vec Ideal S1x1024x1 .i32) (f : Vec Ideal S1x1024x256 .f32) (p : Vec Ideal S1x1024x4 .f32)
    (a : Fin 1024) (h : Fin 256)
    (hr : 0 ≤ (n (ix3 0 a 0)).toInt ∧ (n (ix3 0 a 0)).toInt < 1024) :
    k0_pay1 (F := Ideal) (k0_pay3 w2) e (k0_pay5 b7) (k0_pay6 b9)
        (k0_pay12 (k0_pay2 w0) (k0_pay4 b5) (iota .tc S1x1024 32 [1] iota_S1x1024_d1_w32) n f) p (ix3 0 a h)
      = entry (fun k => f (ix3 0 (tok (n (ix3 0 a 0))) k))
          (embOf (fun q => p (ix3 0 a q)) (fun q c => e (ix2 q c)) (fun c => b7 (ix2 0 c)))
          (fun k c => w0 (ix2 k c)) (fun c => b5 (ix2 0 c)) (fun k c => w2 (ix2 k c)) (fun c => b9 (ix2 0 c)) h := by
  rw [store_at, map_at w0 b5 n f a h hr]
  rfl

end Cert.KernelIdeal.Payload

end
-- ==== Proof.KernelValue.lean ====
/-
  The kernel's result array, as ONE function of the argument arrays: the specification `Cert.NaviSpec.G`.

  Point `t` of the grid writes back the block of scenes `2t` and `2t + 1`; its two stores hold, entry by entry, the
  specification's value for their scene (the stored values read at an entry, with each loaded block read back as the
  array element it holds), the 32 blocks tile the result, so the result array is the specification of the argument
  arrays — under the hypothesis that every navigation index is a map token's number, on which the clip @main applies
  first does nothing.
-/
import proofs.«405649_j52355651338944_3_alg».proof.Proof.FrameKI
import proofs.«405649_j52355651338944_3_alg».proof.Proof.Blocks
import proofs.«405649_j52355651338944_3_alg».proof.Proof.HostStage
import proofs.«405649_j52355651338944_3_alg».proof.Proof.Payload
import proofs.«405649_j52355651338944_3_alg».proof.Proof.Spec
import Idealize.ShloMosaic.Lib.Pipeline.Value
import Idealize.ShloMosaic.Lib.ValueIdx

noncomputable section

namespace Cert.KernelIdeal.KValue

open Cert.KernelIdeal Cert.KernelIdeal.Gen Cert.KernelIdeal.Hand Cert.KernelIdeal.Blocks Cert.KernelIdeal.HostStage
open Cert.KernelIdeal.Payload Cert.NaviSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The navigation indices as launched. -/
abbrev navi (c : Dev nD) : IVec S64x1024 32 := m ((c : Thread nD τ).loc main_arg0)

/-- Every navigation index is a map token's number. -/
def InRange (c : Dev nD) : Prop := ∀ i : S64x1024.Idx, 0 ≤ (navi m c i).toInt ∧ (navi m c i).toInt < 1024

/-- The result array: the specification of the launch contents, the pose features as the region finds them. -/
abbrev result (c : Dev nD) : S64x1024x256.Idx → EReal :=
  G (navi m c) (V m c main_v48) (m ((c : Thread nD τ).loc main_arg2)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-! ## The input blocks at a point, at their literal types -/

abbrev X0 (c : Dev nD) (t : Fin cfg0.N) : Vec Ideal S2x1024x1 .i32 := iblk m c 0 t
abbrev X1 (c : Dev nD) (t : Fin cfg0.N) : Vec Ideal S2x1024x4 .f32 := iblk m c 1 t
abbrev X2 (c : Dev nD) (t : Fin cfg0.N) : Vec Ideal S2x1024x256 .f32 := iblk m c 2 t
abbrev X3 (c : Dev nD) (t : Fin cfg0.N) : Vec Ideal S256x256 .f32 := iblk m c 3 t
abbrev X4 (c : Dev nD) (t : Fin cfg0.N) : Vec Ideal S1x256 .f32 := iblk m c 4 t
abbrev X5 (c : Dev nD) (t : Fin cfg0.N) : Vec Ideal S4x256 .f32 := iblk m c 5 t
abbrev X6 (c : Dev nD) (t : Fin cfg0.N) : Vec Ideal S1x256 .f32 := iblk m c 6 t
abbrev X7 (c : Dev nD) (t : Fin cfg0.N) : Vec Ideal S256x256 .f32 := iblk m c 7 t
abbrev X8 (c : Dev nD) (t : Fin cfg0.N) : Vec Ideal S1x256 .f32 := iblk m c 8 t

theorem X0_read (c : Dev nD) (t : Fin cfg0.N) (s : Fin 2) (j : Fin 1024) (k : Fin 1) :
    X0 m c t (ix3 s j k) = (V m c main_v49 : S64x1024x1.Idx → BitVec 32) (ix3 (scene t s) j k) := blk0_read m c t s j k
theorem X1_read (c : Dev nD) (t : Fin cfg0.N) (s : Fin 2) (j : Fin 1024) (k : Fin 4) :
    X1 m c t (ix3 s j k) = (V m c main_v48 : S64x1024x4.Idx → EReal) (ix3 (scene t s) j k) := blk1_read m c t s j k
theorem X2_read (c : Dev nD) (t : Fin cfg0.N) (s : Fin 2) (j : Fin 1024) (k : Fin 256) :
    X2 m c t (ix3 s j k) = (V m c main_arg2 : S64x1024x256.Idx → EReal) (ix3 (scene t s) j k) := blk2_read m c t s j k
theorem X3_read (c : Dev nD) (t : Fin cfg0.N) (j k : Fin 256) :
    X3 m c t (ix2 j k) = (V m c main_arg4 : S256x256.Idx → EReal) (ix2 j k) := blk3_read m c t j k
theorem X4_read (c : Dev nD) (t : Fin cfg0.N) (j : Fin 1) (k : Fin 256) :
    X4 m c t (ix2 j k) = (V m c main_v50 : S1x256.Idx → EReal) (ix2 j k) := blk4_read m c t j k
theorem X5_read (c : Dev nD) (t : Fin cfg0.N) (j : Fin 4) (k : Fin 256) :
    X5 m c t (ix2 j k) = (V m c main_arg6 : S4x256.Idx → EReal) (ix2 j k) := blk5_read m c t j k
theorem X6_read (c : Dev nD) (t : Fin cfg0.N) (j : Fin 1) (k : Fin 256) :
    X6 m c t (ix2 j k) = (V m c main_v51 : S1x256.Idx → EReal) (ix2 j k) := blk6_read m c t j k
theorem X7_read (c : Dev nD) (t : Fin cfg0.N) (j k : Fin 256) :
    X7 m c t (ix2 j k) = (V m c main_arg8 : S256x256.Idx → EReal) (ix2 j k) := blk7_read m c t j k
theorem X8_read (c : Dev nD) (t : Fin cfg0.N) (j : Fin 1) (k : Fin 256) :
    X8 m c t (ix2 j k) = (V m c main_v52 : S1x256.Idx → EReal) (ix2 j k) := blk8_read m c t j k

/-! ## Loads through the body's rectangles -/

theorem hz2 : (![0, 0] : Fin 2 → Nat) = fun _ => 0 := funext fun a => by fin_cases a <;> rfl

theorem ldW {Val : EltTy → Type} {e : EltTy} (X : S256x256.Idx → Val e) (k c : Fin 256) : View.ld X rW (ix2 k c) = X (ix2 k c) := by
  rw [show View.ld X rW = X from View.ld_unit_zero (S := S256x256) hz2 _ X]
theorem ldE {Val : EltTy → Type} {e : EltTy} (X : S4x256.Idx → Val e) (q : Fin 4) (c : Fin 256) : View.ld X rE (ix2 q c) = X (ix2 q c) := by
  rw [show View.ld X rE = X from View.ld_unit_zero (S := S4x256) hz2 _ X]
theorem ldB {Val : EltTy → Type} {e : EltTy} (X : S1x256.Idx → Val e) (c : Fin 256) : View.ld X rB (ix2 (0 : Fin 1) c) = X (ix2 (0 : Fin 1) c) := by
  rw [show View.ld X rB = X from View.ld_unit_zero (S := S1x256) hz2 _ X]

theorem ldN0 {Val : EltTy → Type} {e : EltTy} (X : S2x1024x1.Idx → Val e) (a : Fin 1024) (k : Fin 1) :
    View.ld X rN0 (ix3 (0 : Fin 1) a k) = X (ix3 (0 : Fin 2) a k) := by
  show X (rN0.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega
theorem ldN1 {Val : EltTy → Type} {e : EltTy} (X : S2x1024x1.Idx → Val e) (a : Fin 1024) (k : Fin 1) :
    View.ld X rN1 (ix3 (0 : Fin 1) a k) = X (ix3 (1 : Fin 2) a k) := by
  show X (rN1.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega
theorem ldP0 {Val : EltTy → Type} {e : EltTy} (X : S2x1024x4.Idx → Val e) (a : Fin 1024) (k : Fin 4) :
    View.ld X rP0 (ix3 (0 : Fin 1) a k) = X (ix3 (0 : Fin 2) a k) := by
  show X (rP0.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega
theorem ldP1 {Val : EltTy → Type} {e : EltTy} (X : S2x1024x4.Idx → Val e) (a : Fin 1024) (k : Fin 4) :
    View.ld X rP1 (ix3 (0 : Fin 1) a k) = X (ix3 (1 : Fin 2) a k) := by
  show X (rP1.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega
theorem ldF0 {Val : EltTy → Type} {e : EltTy} (X : S2x1024x256.Idx → Val e) (a : Fin 1024) (k : Fin 256) :
    View.ld X rF0 (ix3 (0 : Fin 1) a k) = X (ix3 (0 : Fin 2) a k) := by
  show X (rF0.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega
theorem ldF1 {Val : EltTy → Type} {e : EltTy} (X : S2x1024x256.Idx → Val e) (a : Fin 1024) (k : Fin 256) :
    View.ld X rF1 (ix3 (0 : Fin 1) a k) = X (ix3 (1 : Fin 2) a k) := by
  show X (rF1.idx (ix3 (0 : Fin 1) a k)) = _
  congr 1; funext ax; apply Fin.ext
  match ax with
  | ⟨0, _⟩ => rfl
  | ⟨1, _⟩ => show 0 + 1 * a.val = a.val; omega
  | ⟨2, _⟩ => show 0 + 1 * k.val = k.val; omega

/-! ## The specification at an entry, and its congruences -/

theorem G_apply (nv : IVec SNavi 32) (pe : FVec Ideal SPe .f32) (feat : FVec Ideal SFeat .f32)
    (Wmp : FVec Ideal SW .f32) (bmp : FVec Ideal SB .f32) (Wemb : FVec Ideal SE .f32) (bemb : FVec Ideal SB .f32)
    (Wpe : FVec Ideal SW .f32) (bpe : FVec Ideal SB .f32) (b : Fin 64) (a : Fin 1024) (h : Fin 256) :
    G nv pe feat Wmp bmp Wemb bemb Wpe bpe (ix3 b a h)
      = entry (fun k => feat (ix3 b (tok (nv (ix2 b a))) k))
          (embOf (fun f => pe (ix3 b a f)) (fun f p => Wemb (ix2 f p)) (fun p => bemb (ix1 p)))
          (fun k c => Wmp (ix2 k c)) (fun c => bmp (ix1 c)) (fun k c => Wpe (ix2 k c)) (fun c => bpe (ix1 c)) h := rfl

theorem entry_congr {row row' e e' : Fin 256 → EReal} {Wmp Wmp' : Fin 256 → Fin 256 → EReal} {bmp bmp' : Fin 256 → EReal}
    {Wpe Wpe' : Fin 256 → Fin 256 → EReal} {bpe bpe' : Fin 256 → EReal} (h : Fin 256)
    (h1 : row = row') (h2 : e = e') (h3 : Wmp = Wmp') (h4 : bmp = bmp') (h5 : Wpe = Wpe') (h6 : bpe = bpe') :
    entry row e Wmp bmp Wpe bpe h = entry row' e' Wmp' bmp' Wpe' bpe' h := by
  subst h1 h2 h3 h4 h5 h6; rfl

theorem embOf_congr {pe4 pe4' : Fin 4 → EReal} {We We' : Fin 4 → Fin 256 → EReal} {be be' : Fin 256 → EReal}
    (h1 : pe4 = pe4') (h2 : We = We') (h3 : be = be') : embOf pe4 We be = embOf pe4' We' be' := by
  subst h1 h2 h3; rfl

/-! ## The two stores, entry by entry -/

set_option maxHeartbeats 1000000 in
/-- Scene 0 of the pair: the first store's value at agent `a`, column `h`, is the specification's entry for scene `2t + 0`. -/
theorem scene0_entry (c : Dev nD) (t : Fin cfg0.N) (hr : InRange m c) (a : Fin 1024) (h : Fin 256) :
    scene0 (F := Ideal) (X0 m c t) (X1 m c t) (X2 m c t) (X3 m c t) (X4 m c t) (X5 m c t) (X6 m c t) (X7 m c t) (X8 m c t) (ix3 (0 : Fin 1) a h)
      = result m c (ix3 (scene t 0) a h) := by
  have hn : View.ld (X0 m c t) rN0 (ix3 (0 : Fin 1) a (0 : Fin 1)) = navi m c (ix2 (scene t 0) a) := by
    rw [ldN0, X0_read, V_navi_apply, clip_of_range _ hr]
  unfold scene0
  refine (scene0_apply (View.ld (X3 m c t) rW) (View.ld (X7 m c t) rW) (View.ld (X5 m c t) rE)
    (View.ld (X4 m c t) rB) (View.ld (X6 m c t) rB) (View.ld (X8 m c t) rB)
    (View.ld (X0 m c t) rN0) (View.ld (X2 m c t) rF0) (View.ld (X1 m c t) rP0) a h
    (by rw [hn]; exact hr _)).trans ?_
  rw [hn]
  unfold result
  rw [G_apply]
  refine entry_congr h (funext fun k => ?_) (embOf_congr (funext fun q => ?_) (funext fun q => funext fun p => ?_) (funext fun p => ?_))
    (funext fun k => funext fun p => ?_) (funext fun p => ?_) (funext fun k => funext fun p => ?_) (funext fun p => ?_)
  · rw [ldF0, X2_read, V_main_arg2]
  · rw [ldP0, X1_read]
  · rw [ldE, X5_read, V_main_arg6]
  · rw [ldB, X6_read, V_bemb_apply]
  · rw [ldW, X3_read, V_main_arg4]
  · rw [ldB, X4_read, V_bmp_apply]
  · rw [ldW, X7_read, V_main_arg8]
  · rw [ldB, X8_read, V_bpe_apply]

set_option maxHeartbeats 1000000 in
/-- Scene 1 of the pair: the second store's value at agent `a`, column `h`, is the specification's entry for scene `2t + 1`. -/
theorem scene1_entry (c : Dev nD) (t : Fin cfg0.N) (hr : InRange m c) (a : Fin 1024) (h : Fin 256) :
    scene1 (F := Ideal) (X0 m c t) (X1 m c t) (X2 m c t) (X3 m c t) (X4 m c t) (X5 m c t) (X6 m c t) (X7 m c t) (X8 m c t) (ix3 (0 : Fin 1) a h)
      = result m c (ix3 (scene t 1) a h) := by
  have hn : View.ld (X0 m c t) rN1 (ix3 (0 : Fin 1) a (0 : Fin 1)) = navi m c (ix2 (scene t 1) a) := by
    rw [ldN1, X0_read, V_navi_apply, clip_of_range _ hr]
  unfold scene1
  refine (scene1_apply (View.ld (X3 m c t) rW) (View.ld (X7 m c t) rW) (View.ld (X5 m c t) rE)
    (View.ld (X4 m c t) rB) (View.ld (X6 m c t) rB) (View.ld (X8 m c t) rB)
    (View.ld (X0 m c t) rN1) (View.ld (X2 m c t) rF1) (View.ld (X1 m c t) rP1) a h
    (by rw [hn]; exact hr _)).trans ?_
  rw [hn]
  unfold result
  rw [G_apply]
  refine entry_congr h (funext fun k => ?_) (embOf_congr (funext fun q => ?_) (funext fun q => funext fun p => ?_) (funext fun p => ?_))
    (funext fun k => funext fun p => ?_) (funext fun p => ?_) (funext fun k => funext fun p => ?_) (funext fun p => ?_)
  · rw [ldF1, X2_read, V_main_arg2]
  · rw [ldP1, X1_read]
  · rw [ldE, X5_read, V_main_arg6]
  · rw [ldB, X6_read, V_bemb_apply]
  · rw [ldW, X3_read, V_main_arg4]
  · rw [ldB, X4_read, V_bmp_apply]
  · rw [ldW, X7_read, V_main_arg8]
  · rw [ldB, X8_read, V_bpe_apply]

/-! ## Blocks to the array -/

set_option maxHeartbeats 1000000 in
/-- What point `t` writes back is block `t` of the specification. -/
theorem flushed9_eq (c : Dev nD) (hr : InRange m c) (t : Fin cfg0.N) :
    (dats m 0 c).flushed 9 t = ((cfg0.win 9).blk t).view.read (Elt Ideal) (result m c) := by
  show (cfg0.win 9).cut (grid0.coords t) ((dats m 0 c).after 9 t) = _
  rw [after0_9]
  funext y
  show out0_9 (F := Ideal) (X0 m c t) (X1 m c t) (X2 m c t) (X3 m c t) (X4 m c t) (X5 m c t) (X6 m c t) (X7 m c t) (X8 m c t) y
    = result m c (((cfg0.win 9).blk t).view.emb y)
  unfold out0_9
  refine View.canon_apply_of_pieces (Val := Elt Ideal) (S := S2x1024x256) (e := .f32) (fun y => result m c (((cfg0.win 9).blk t).view.emb y)) _ ?_ y (cover0_9 _ _ y)
  intro p hp x
  rcases List.mem_cons.mp hp with rfl | hp
  · obtain ⟨s, a, h, rfl⟩ : ∃ (s : Fin 1) (a : Fin 1024) (h : Fin 256), x = ix3 s a h := ⟨x 0, x 1, x 2, eq_ix3 x⟩
    obtain rfl : s = 0 := Subsingleton.elim _ _
    have e : rF1.emb (ix3 (0 : Fin 1) a h) = (ix3 (1 : Fin 2) a h : S2x1024x256.Idx) := by
      funext ax; apply Fin.ext
      match ax with
      | ⟨0, _⟩ => rfl
      | ⟨1, _⟩ => show 0 + 1 * a.val = a.val; omega
      | ⟨2, _⟩ => show 0 + 1 * h.val = h.val; omega
    show scene1 (F := Ideal) (X0 m c t) (X1 m c t) (X2 m c t) (X3 m c t) (X4 m c t) (X5 m c t) (X6 m c t) (X7 m c t) (X8 m c t) (ix3 (0 : Fin 1) a h) = result m c (((cfg0.win 9).blk t).view.emb (rF1.emb (ix3 (0 : Fin 1) a h)))
    rw [e, blk9_emb]
    exact scene1_entry m c t hr a h
  · rcases List.mem_cons.mp hp with rfl | hp
    · obtain ⟨s, a, h, rfl⟩ : ∃ (s : Fin 1) (a : Fin 1024) (h : Fin 256), x = ix3 s a h := ⟨x 0, x 1, x 2, eq_ix3 x⟩
      obtain rfl : s = 0 := Subsingleton.elim _ _
      have e : rF0.emb (ix3 (0 : Fin 1) a h) = (ix3 (0 : Fin 2) a h : S2x1024x256.Idx) := by
        funext ax; apply Fin.ext
        match ax with
        | ⟨0, _⟩ => rfl
        | ⟨1, _⟩ => show 0 + 1 * a.val = a.val; omega
        | ⟨2, _⟩ => show 0 + 1 * h.val = h.val; omega
      show scene0 (F := Ideal) (X0 m c t) (X1 m c t) (X2 m c t) (X3 m c t) (X4 m c t) (X5 m c t) (X6 m c t) (X7 m c t) (X8 m c t) (ix3 (0 : Fin 1) a h) = result m c (((cfg0.win 9).blk t).view.emb (rF0.emb (ix3 (0 : Fin 1) a h)))
      rw [e, blk9_emb]
      exact scene0_entry m c t hr a h
    · exact absurd hp List.not_mem_nil

/-- THE RESULT ARRAY after the run is the specification. -/
theorem final9 (c : Dev nD) (hr : InRange m c) : (dats m 0 c).arrAt 9 cfg0.N = result m c :=
  (dats m 0 c).arrAt_eq_of_cover 9 (result m c) (fun t _ => flushed9_eq m c hr t) cover9

/-! ## The run, read -/

/-- The frame run with the result array named, the arguments as launched. -/
theorem run (hr : ∀ c, InRange m c) : θ_run defs (onTc (τ := τ) (main (F := Ideal))) ⟨m, fun _ => 0, ρ⟩ fun r => ∀ c : Dev nD,
      r.2.mem ((c : Thread nD τ).loc main_v53) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 9).trans (final9 m c (hr c)), kept_of_post m (dats m) (A_eq m) r h c⟩)
    (run_main m ρ)

end Cert.KernelIdeal.KValue

end
-- ==== Proof.LibGatherPairRows.lean ====
/-
  GATHER OF ROWS OF A RANK-3 TABLE AT PAIRS OF START INDICES, read at an index.

  What `table[i0, i1, :]` of a table `[B, N, D]` at an integer array `idx : [R, C, 2]` lowers to: `stablehlo.gather`
  with offset_dims `[2]`, collapsed_slice_dims `[0, 1]`, no batching axes, start_index_map `[0, 1]`,
  index_vector_dim `2` and slice_sizes `[1, 1, D]`. The result has shape `[R, C, D]`; its axes 0 and 1 are batch axes
  (they read the start indices' axes 0 and 1), its axis 2 is the one offset axis (it reads the table's axis 2, the only
  one that is neither collapsed nor batching).

  Result element `(r, c, h)` is the table at `(clamp idx[r, c, 0], clamp idx[r, c, 1], h)`: per operand axis the operand
  index is start + batching coordinate + offset coordinate;
    * on axes 0 and 1 (in the start index map, collapsed) the start is the start index's component, read as a signed
      integer and clamped into `[0, B − 1]` resp. `[0, N − 1]` (StableHLO clamps each start index so that the slice of
      size 1 fits), the batching and offset coordinates are `0`;
    * on axis 2 (not in the start index map, kept) the start is `0`, the batching coordinate is `0` and the offset
      coordinate is the result's coordinate `h` on its offset axis.
  The argument is the rank-1 one (`ValueIdx.gather_take_apply`) with two start-index components and one kept axis.
-/
import Idealize.ShloMosaic.PureOps
import Idealize.ShloMosaic.Lib.ValueIdx

namespace Idealize.ShloMosaic.GatherPairRows

open Idealize.ShloMosaic Idealize.ShloMosaic.ValueIdx

variable {α : Type}

/-- Those dimension numbers for a table `[B, N, D]`, start indices `[R, C, 2]` and result `[R, C, D]`; their
    conditions `wf` are decided on a program's literal shapes. -/
abbrev pairDims (B N D R C : Nat)
    (wf : GatherDims.WF ⟨3, ![B, N, D]⟩ ⟨3, ![R, C, 2]⟩ ⟨3, ![R, C, D]⟩ [2] [0, 1] [] [0, 1] [] 2 ![1, 1, D]) :
    GatherDims ⟨3, ![B, N, D]⟩ ⟨3, ![R, C, 2]⟩ ⟨3, ![R, C, D]⟩ where
  offsetDims := [2]
  collapsedSliceDims := [0, 1]
  operandBatchingDims := []
  startIndicesBatchingDims := []
  startIndexMap := [0, 1]
  indexVectorDim := 2
  sliceSizes := ![1, 1, D]
  wf := wf

/-- The start-indices index `[r, c, q]` at which result index `(r, c, h)` reads component `q` of its start index. -/
abbrev pairIdx {R C D : Nat} (y : (⟨3, ![R, C, D]⟩ : Shape).Idx) (q : Fin 2) : (⟨3, ![R, C, 2]⟩ : Shape).Idx :=
  fun a => match a with | ⟨0, _⟩ => ⟨(y 0).val, (y 0).isLt⟩ | ⟨1, _⟩ => ⟨(y 1).val, (y 1).isLt⟩ | ⟨2, _⟩ => q

/-- THE GATHER READ AT `(r, c, h)`: the table at the two start-index components `idx[r, c, 0]`, `idx[r, c, 1]`, each
    read signed and clamped into its axis (`[0, B − 1]`, `[0, N − 1]`), and at `h` on the kept axis. -/
theorem gather_pair_rows_apply {B N D R C w : Nat} (hB : 0 < B) (hN : 0 < N)
    (wf : GatherDims.WF ⟨3, ![B, N, D]⟩ ⟨3, ![R, C, 2]⟩ ⟨3, ![R, C, D]⟩ [2] [0, 1] [] [0, 1] [] 2 ![1, 1, D])
    (x : (⟨3, ![B, N, D]⟩ : Shape).Idx → α) (idx : IVec ⟨3, ![R, C, 2]⟩ w) (y : (⟨3, ![R, C, D]⟩ : Shape).Idx) :
    Host.gather (pairDims B N D R C wf) x idx y
      = x (ix3 ⟨min (idx (pairIdx y 0)).toInt.toNat (B - 1), by omega⟩
            ⟨min (idx (pairIdx y 1)).toInt.toNat (N - 1), by omega⟩ ⟨(y 2).val, (y 2).isLt⟩) := by
  unfold Host.gather
  congr 1
  funext a
  refine Fin.ext ?_
  -- the two start-index reads: component `q` is read at `[r, c, q]`
  have hm0 : (0 : Fin 3) ∈ (pairDims B N D R C wf).startIndexMap := by simp
  have hm1 : (1 : Fin 3) ∈ (pairDims B N D R C wf).startIndexMap := by simp
  have hsi0 : (pairDims B N D R C wf).siIdx y ⟨List.idxOf (0 : Fin 3) (pairDims B N D R C wf).startIndexMap,
      List.idxOf_lt_length_iff.2 hm0⟩ = pairIdx y 0 := by
    funext b; refine Fin.ext ?_
    match b with
    | ⟨0, _⟩ => rfl
    | ⟨1, _⟩ => rfl
    | ⟨2, _⟩ => rfl
  have hsi1 : (pairDims B N D R C wf).siIdx y ⟨List.idxOf (1 : Fin 3) (pairDims B N D R C wf).startIndexMap,
      List.idxOf_lt_length_iff.2 hm1⟩ = pairIdx y 1 := by
    funext b; refine Fin.ext ?_
    match b with
    | ⟨0, _⟩ => rfl
    | ⟨1, _⟩ => rfl
    | ⟨2, _⟩ => rfl
  match a with
  | ⟨0, _⟩ =>
    -- axis 0: collapsed and in the start index map
    show (pairDims B N D R C wf).start y idx 0 + (pairDims B N D R C wf).batchCoord y 0
      + (pairDims B N D R C wf).offCoord y 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos hm0, hsi0]
    rfl
  | ⟨1, _⟩ =>
    -- axis 1: collapsed and in the start index map
    show (pairDims B N D R C wf).start y idx 1 + (pairDims B N D R C wf).batchCoord y 1
      + (pairDims B N D R C wf).offCoord y 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos hm1, hsi1]
    rfl
  | ⟨2, _⟩ =>
    -- axis 2: kept, not in the start index map; it reads the result's one offset axis
    show (pairDims B N D R C wf).start y idx 2 + (pairDims B N D R C wf).batchCoord y 2
      + (pairDims B N D R C wf).offCoord y 2 = _
    have hn2 : (2 : Fin 3) ∉ (pairDims B N D R C wf).startIndexMap := by
      show (2 : Fin 3) ∉ ([0, 1] : List (Fin 3)); decide
    have hk2 : (2 : Fin 3) ∈ (pairDims B N D R C wf).sKept := by
      rw [GatherDims.mem_sKept]
      exact ⟨by show (2 : Fin 3) ∉ ([0, 1] : List (Fin 3)); decide, List.not_mem_nil⟩
    rw [GatherDims.batchCoord_eq_zero _ _ _ List.not_mem_nil]
    unfold GatherDims.start
    rw [dif_neg hn2]
    unfold GatherDims.offCoord
    rw [dif_pos hk2, Nat.zero_add]
    rfl

end Idealize.ShloMosaic.GatherPairRows
-- ==== Proof.RefSide.lean ====
/-
  The reference's result is the specification `Cert.NaviSpec.G`, index by index, at the extended reals.

  The reference gathers, for scene `b` and agent `a`, the feature row whose number is the agent's navigation index
  (a negative index first wrapped by the map's length, as indexing does, then clamped into range by the gather: both
  are the identity on an index in range), projects it by `W_mp`, and adds the pose projection of the rectified
  embedding; its three matrix products read as plain sums over the contracted axis.

  The steps, in order:
    * words: a signed comparison `w < 0` of a word with `0 ≤ w` is the bit `0`, so the select that wraps a negative
      index keeps `w`;
    * the start indices `[b, a, :]` are the pair (scene number `b` as a word, the navigation word of `(b, a)`): the
      first piece of the two-piece concatenation is the iota of scenes (never negative, so unwrapped), the second the
      navigation words (in range, so unwrapped);
    * the gather at `(b, a, k)` reads the table at `(clamp b, clamp navi[b, a], k)`; the scene number is below 64, so
      its clamp is the identity, and the clamp of the navigation word is the specification's token `tok`;
    * each matrix product is the sum over its contracted axis, each bias a broadcast along the two leading axes.
-/
import proofs.«405649_j52355651338944_3_alg».proof.Proof.Gen.ReferenceIdeal.Read
import proofs.«405649_j52355651338944_3_alg».proof.Proof.Spec
import proofs.«405649_j52355651338944_3_alg».proof.Proof.LibGatherPairRows
import Idealize.ShloMosaic.Lib.Pipeline.Value
import Idealize.ShloMosaic.Lib.ValueLayout
import Idealize.ShloMosaic.Lib.ValueIdx
import Idealize.ShloMosaic.Lib.StableHlo.Predicate
import Idealize.ShloMosaic.PureOps.Ideal.Laws

noncomputable section

namespace Cert.RefSide

open Cert.ReferenceIdeal Cert.ReferenceIdeal.Gen Cert.ReferenceIdeal.Read Cert.NaviSpec
open Idealize.ShloMosaic Idealize.ShloMosaic.ValueIdx Idealize.ShloMosaic.GatherPairRows
open scoped BigOperators

/-! ## Words -/

/-- A word that is not negative as a signed integer is not signed-below zero: the comparison's bit is `0`. -/
theorem cmpi_slt_zero_of_nonneg (w : BitVec 32) (h0 : 0 ≤ w.toInt) : IntOp.cmpi .slt w 0#32 = 0#1 := by
  have hs : w.slt 0#32 = false := by
    unfold BitVec.slt
    rw [BitVec.toInt_zero]
    exact decide_eq_false (by omega)
  show BitVec.ofBool (w.slt 0#32) = 0#1
  rw [hs]; rfl

/-- So a select on "`w` is negative" keeps its second operand. -/
theorem select_slt_zero_of_nonneg {α : Type} (w : BitVec 32) (h0 : 0 ≤ w.toInt) (X Y : α) :
    Scalar.select (IntOp.cmpi .slt w 0#32) X Y = Y := by
  rw [cmpi_slt_zero_of_nonneg w h0]; exact select_zero X Y

/-- A scene number as a 32-bit word reads back as itself. -/
theorem toInt_ofNat_scene (n : Nat) (hn : n < 64) : (BitVec.ofNat 32 n).toInt = (n : Int) :=
  StableHlo.Predicate.toInt_ofNat_small n (by omega)

/-! ## The start indices -/

/-- The first component of every start index is the scene number: the iota of scenes, wrapped only if negative
    (it never is), broadcast along the agents. -/
theorem scene_word (b : Fin 64) (a : Fin 1024) :
    val_main_v13 (F := Ideal) (ix3 b a (0 : Fin 1)) = BitVec.ofNat 32 b.val := by
  rw [val_main_v13_apply, val_main_v12_apply, val_main_v6_apply, val_main_v3_apply, val_main_v1_apply,
    val_main_v0_apply, val_main_v2_apply, val_main_c_apply]
  exact select_slt_zero_of_nonneg (BitVec.ofNat 32 b.val)
    (by rw [toInt_ofNat_scene _ b.isLt]; exact Int.natCast_nonneg _) _ _

/-- The second component is the navigation word, wrapped only if negative (it is not, under `hr`). -/
theorem token_word (x0 : (⟨S64x1024, .i32⟩ : BufTy).Contents (Elt Ideal))
    (hr : ∀ i : S64x1024.Idx, 0 ≤ (x0 i).toInt ∧ (x0 i).toInt < 1024) (b : Fin 64) (a : Fin 1024) :
    val_main_v14 (F := Ideal) x0 (ix3 b a (0 : Fin 1)) = x0 (ix2 b a) := by
  have e : idx_main_v14 (ix3 b a (0 : Fin 1)) = ix2 b a := by
    funext c; match c with | ⟨0, _⟩ => rfl | ⟨1, _⟩ => rfl
  rw [val_main_v14_apply, e, val_main_v11_apply, val_main_v8_apply, val_main_v7_apply, val_main_c_1_apply]
  exact select_slt_zero_of_nonneg (x0 (ix2 b a)) (hr (ix2 b a)).1 _ _

/-- The start indices at `[b, a, 0]`: the first piece of the concatenation. -/
theorem idx_scene (x0 : (⟨S64x1024, .i32⟩ : BufTy).Contents (Elt Ideal)) (b : Fin 64) (a : Fin 1024) (k : Fin 256) :
    val_main_v15 (F := Ideal) x0 (pairIdx (ix3 b a k) 0) = BitVec.ofNat 32 b.val := by
  unfold val_main_v15
  refine (concatenate_pair_apply_left (t := S64x1024x2) (s₁ := S64x1024x1) (s₂ := S64x1024x1) _ _ _ _ (pairIdx (ix3 b a k) 0) rfl (ix3 b a (0 : Fin 1)) ?_).trans (scene_word b a)
  intro c
  match c with
  | ⟨0, _⟩ => rfl
  | ⟨1, _⟩ => rfl
  | ⟨2, _⟩ => rfl

/-- The start indices at `[b, a, 1]`: the second piece of the concatenation. -/
theorem idx_token (x0 : (⟨S64x1024, .i32⟩ : BufTy).Contents (Elt Ideal))
    (hr : ∀ i : S64x1024.Idx, 0 ≤ (x0 i).toInt ∧ (x0 i).toInt < 1024) (b : Fin 64) (a : Fin 1024) (k : Fin 256) :
    val_main_v15 (F := Ideal) x0 (pairIdx (ix3 b a k) 1) = x0 (ix2 b a) := by
  unfold val_main_v15
  refine (concatenate_pair_apply_right (t := S64x1024x2) (s₁ := S64x1024x1) (s₂ := S64x1024x1) _ _ _ _ (pairIdx (ix3 b a k) 1) rfl rfl (ix3 b a (0 : Fin 1)) ?_ ?_).trans
    (token_word x0 hr b a)
  · intro c hc
    match c, hc with
    | ⟨0, _⟩, _ => rfl
    | ⟨1, _⟩, _ => rfl
    | ⟨2, _⟩, hc => exact absurd rfl hc
  · rfl

/-! ## The gather -/

/-- THE GATHER AT `(b, a, k)`: the feature row of the agent's destination token, at column `k`. -/
theorem v16_read (x0 : (⟨S64x1024, .i32⟩ : BufTy).Contents (Elt Ideal)) (x2 : (⟨S64x1024x256, .f32⟩ : BufTy).Contents (Elt Ideal))
    (hr : ∀ i : S64x1024.Idx, 0 ≤ (x0 i).toInt ∧ (x0 i).toInt < 1024) (b : Fin 64) (a : Fin 1024) (k : Fin 256) :
    val_main_v16 (F := Ideal) x0 x2 (ix3 b a k) = x2 (ix3 b (tok (x0 (ix2 b a))) k) := by
  unfold val_main_v16
  refine (gather_pair_rows_apply (B := 64) (N := 1024) (D := 256) (R := 64) (C := 1024) (by decide) (by decide)
    gather_S64x1024x256_S64x1024x2_S64x1024x256_2_01_n_n_01_2_11256_wf x2 (val_main_v15 (F := Ideal) x0) (ix3 b a k)).trans ?_
  congr 1
  funext c
  refine Fin.ext ?_
  match c with
  | ⟨0, _⟩ =>
    show min (val_main_v15 (F := Ideal) x0 (pairIdx (ix3 b a k) 0)).toInt.toNat (64 - 1) = b.val
    rw [idx_scene x0 b a k, toInt_ofNat_scene _ b.isLt]
    have := b.isLt
    omega
  | ⟨1, _⟩ =>
    show min (val_main_v15 (F := Ideal) x0 (pairIdx (ix3 b a k) 1)).toInt.toNat (1024 - 1) = (tok (x0 (ix2 b a))).val
    rw [idx_token x0 hr b a k]
    rfl
  | ⟨2, _⟩ => rfl

/-! ## The two halves of the result -/

/-- The map half: the destination token's feature row against `W_mp`, plus the bias. -/
theorem half_map (x0 : (⟨S64x1024, .i32⟩ : BufTy).Contents (Elt Ideal)) (x2 : (⟨S64x1024x256, .f32⟩ : BufTy).Contents (Elt Ideal)) (x4 : (⟨S256x256, .f32⟩ : BufTy).Contents (Elt Ideal)) (x5 : (⟨S256, .f32⟩ : BufTy).Contents (Elt Ideal))
    (hr : ∀ i : S64x1024.Idx, 0 ≤ (x0 i).toInt ∧ (x0 i).toInt < 1024) (b : Fin 64) (a : Fin 1024) (h : Fin 256) :
    val_main_v20 (F := Ideal) x0 x2 x4 x5 (ix3 b a h)
      = (∑ k : Fin 256, x2 (ix3 b (tok (x0 (ix2 b a))) k) * x4 (ix2 k h)) + x5 (ix1 h) := by
  rw [val_main_v20_apply, val_main_v17_apply, val_main_v19_apply, val_main_v18_apply]
  show (∑ k : Fin 256, val_main_v16 (F := Ideal) x0 x2 (lidx_main_v17 (ix3 b a h) k) * x4 (ridx_main_v17 (ix3 b a h) k))
      + x5 (idx_main_v18 (idx_main_v19 (ix3 b a h)))
    = (∑ k : Fin 256, x2 (ix3 b (tok (x0 (ix2 b a))) k) * x4 (ix2 k h)) + x5 (ix1 h)
  congr 1
  · refine Finset.sum_congr rfl fun k _ => ?_
    have e1 : lidx_main_v17 (ix3 b a h) k = ix3 b a k := by
      funext c; match c with | ⟨0, _⟩ => rfl | ⟨1, _⟩ => rfl | ⟨2, _⟩ => rfl
    have e2 : ridx_main_v17 (ix3 b a h) k = ix2 k h := by
      funext c; match c with | ⟨0, _⟩ => rfl | ⟨1, _⟩ => rfl
    rw [e1, e2, v16_read x0 x2 hr b a k]
  · congr 1
    funext c; match c with | ⟨0, _⟩ => rfl

/-- The pose embedding before its ReLU: the four pose features against `W_emb`, plus the bias. -/
theorem emb_read (x0 : (⟨S64x1024, .i32⟩ : BufTy).Contents (Elt Ideal)) (x1 : (⟨S64x1024x3, .f32⟩ : BufTy).Contents (Elt Ideal)) (x3 : (⟨S64x1024x3, .f32⟩ : BufTy).Contents (Elt Ideal)) (x6 : (⟨S4x256, .f32⟩ : BufTy).Contents (Elt Ideal)) (x7 : (⟨S256, .f32⟩ : BufTy).Contents (Elt Ideal))
    (b : Fin 64) (a : Fin 1024) (p : Fin 256) :
    val_main_v70 (F := Ideal) x0 x1 x3 x6 x7 (ix3 b a p)
      = embOf (fun f => val_main_v66 (F := Ideal) x0 x1 x3 (ix3 b a f)) (fun f p => x6 (ix2 f p)) (fun p => x7 (ix1 p)) p := by
  rw [val_main_v70_apply, val_main_v67_apply, val_main_v69_apply, val_main_v68_apply]
  show (∑ f : Fin 4, val_main_v66 (F := Ideal) x0 x1 x3 (lidx_main_v67 (ix3 b a p) f) * x6 (ridx_main_v67 (ix3 b a p) f))
      + x7 (idx_main_v68 (idx_main_v69 (ix3 b a p)))
    = (∑ f : Fin 4, val_main_v66 (F := Ideal) x0 x1 x3 (ix3 b a f) * x6 (ix2 f p)) + x7 (ix1 p)
  congr 1
  · refine Finset.sum_congr rfl fun f _ => ?_
    have e1 : lidx_main_v67 (ix3 b a p) f = ix3 b a f := by
      funext c; match c with | ⟨0, _⟩ => rfl | ⟨1, _⟩ => rfl | ⟨2, _⟩ => rfl
    have e2 : ridx_main_v67 (ix3 b a p) f = ix2 f p := by
      funext c; match c with | ⟨0, _⟩ => rfl | ⟨1, _⟩ => rfl
    rw [e1, e2]
  · congr 1
    funext c; match c with | ⟨0, _⟩ => rfl

/-- The pose half: the rectified embedding against `W_pe`, plus the bias. -/
theorem half_pose (x0 : (⟨S64x1024, .i32⟩ : BufTy).Contents (Elt Ideal)) (x1 : (⟨S64x1024x3, .f32⟩ : BufTy).Contents (Elt Ideal)) (x3 : (⟨S64x1024x3, .f32⟩ : BufTy).Contents (Elt Ideal)) (x6 : (⟨S4x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (b : Fin 64) (a : Fin 1024) (h : Fin 256) :
    val_main_v75 (F := Ideal) x0 x1 x3 x6 x7 x8 x9 (ix3 b a h)
      = (∑ p : Fin 256, max (embOf (fun f => val_main_v66 (F := Ideal) x0 x1 x3 (ix3 b a f)) (fun f p => x6 (ix2 f p))
            (fun p => x7 (ix1 p)) p) (Ideal.ofBits .f32 0x00000000#32) * x8 (ix2 p h)) + x9 (ix1 h) := by
  rw [val_main_v75_apply, val_main_v72_apply, val_main_v74_apply, val_main_v73_apply]
  show (∑ p : Fin 256, val_main_v71 (F := Ideal) x0 x1 x3 x6 x7 (lidx_main_v72 (ix3 b a h) p) * x8 (ridx_main_v72 (ix3 b a h) p))
      + x9 (idx_main_v73 (idx_main_v74 (ix3 b a h)))
    = (∑ p : Fin 256, max (embOf (fun f => val_main_v66 (F := Ideal) x0 x1 x3 (ix3 b a f)) (fun f p => x6 (ix2 f p))
          (fun p => x7 (ix1 p)) p) (Ideal.ofBits .f32 0x00000000#32) * x8 (ix2 p h)) + x9 (ix1 h)
  congr 1
  · refine Finset.sum_congr rfl fun p _ => ?_
    have e1 : lidx_main_v72 (ix3 b a h) p = ix3 b a p := by
      funext c; match c with | ⟨0, _⟩ => rfl | ⟨1, _⟩ => rfl | ⟨2, _⟩ => rfl
    have e2 : ridx_main_v72 (ix3 b a h) p = ix2 p h := by
      funext c; match c with | ⟨0, _⟩ => rfl | ⟨1, _⟩ => rfl
    -- the ReLU: the maximum with the broadcast zero word
    have e3 : val_main_v71 (F := Ideal) x0 x1 x3 x6 x7 (ix3 b a p)
        = max (embOf (fun f => val_main_v66 (F := Ideal) x0 x1 x3 (ix3 b a f)) (fun f p => x6 (ix2 f p))
            (fun p => x7 (ix1 p)) p) (Ideal.ofBits .f32 0x00000000#32) :=
      (val_main_v71_apply (F := Ideal) x0 x1 x3 x6 x7 (ix3 b a p)).trans
        (congrArg₂ (FloatOps.maximumf (F := Ideal) (φ := .f32)) (emb_read x0 x1 x3 x6 x7 b a p)
          ((val_main_call0_v0_apply (F := Ideal) (ix3 b a p)).trans (val_main_call0_cst_apply (F := Ideal) _)))
    rw [e1, e2, e3]
  · congr 1
    funext c; match c with | ⟨0, _⟩ => rfl

/-! ## The result -/

/-- The reference's result stage is the specification, with the pose features left as the reference's own stage
    `val_main_v66`. -/
theorem ref_is_G (x0 : (⟨S64x1024, .i32⟩ : BufTy).Contents (Elt Ideal)) (x1 : (⟨S64x1024x3, .f32⟩ : BufTy).Contents (Elt Ideal)) (x2 : (⟨S64x1024x256, .f32⟩ : BufTy).Contents (Elt Ideal))
    (x3 : (⟨S64x1024x3, .f32⟩ : BufTy).Contents (Elt Ideal)) (x4 : (⟨S256x256, .f32⟩ : BufTy).Contents (Elt Ideal)) (x5 : (⟨S256, .f32⟩ : BufTy).Contents (Elt Ideal))
    (x6 : (⟨S4x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal))
    (hr : ∀ i : S64x1024.Idx, 0 ≤ (x0 i).toInt ∧ (x0 i).toInt < 1024) :
    val_main_v76 (F := Ideal) x0 x1 x2 x3 x4 x5 x6 x7 x8 x9
      = G x0 (val_main_v66 (F := Ideal) x0 x1 x3) x2 x4 x5 x6 x7 x8 x9 := by
  funext i
  obtain ⟨b, a, h, rfl⟩ : ∃ (b : Fin 64) (a : Fin 1024) (h : Fin 256), i = ix3 b a h := ⟨i 0, i 1, i 2, eq_ix3 i⟩
  rw [val_main_v76_apply, half_map x0 x2 x4 x5 hr b a h, half_pose x0 x1 x3 x6 x7 x8 x9 b a h]
  rfl

end Cert.RefSide

end
-- ==== Proof.PreRange.lean ====
/-
  What the precondition says of the navigation indices: every one of them is a map token's number.

  The printed predicate is a conjunction, the last two conjuncts `all (navi ≥ 0)` and `all (navi < 1024)` as signed
  comparisons reduced by `and` over the whole array; a reduction by `and` that is 1 had a 1 at every entry.
-/
import proofs.«405649_j52355651338944_3_alg».proof.Pre_finite_inputs
import proofs.«405649_j52355651338944_3_alg».proof.Proof.Gen.Pre_finite_inputs
import Idealize.ShloMosaic.Lib.ReduceAll
import Idealize.ShloMosaic.Lib.Affine
import Idealize.ShloMosaic.Lib.ValueIdx

noncomputable section

namespace Cert.PreRange

open Cert.Pre_finite_inputs Idealize.ShloMosaic Idealize.ShloMosaic.ValueIdx

variable {F : FTy → Type} [FloatOps F]

instance : Subsingleton S_.Idx := ⟨fun a b => funext fun d => d.elim0⟩

/-- A signed `w ≥ 0` that holds. -/
theorem nonneg_of_sge {w : BitVec 32} (h : IntOp.cmpi .sge w 0#32 = 1#1) : 0 ≤ w.toInt := by
  have hb : (0#32 : BitVec 32).sle w = true := by
    cases hc : (0#32 : BitVec 32).sle w with
    | true => rfl
    | false =>
      have e : IntOp.cmpi .sge w 0#32 = 0#1 := by
        show BitVec.ofBool ((0#32 : BitVec 32).sle w) = 0#1
        rw [hc]; rfl
      rw [e] at h; exact absurd h (by decide)
  unfold BitVec.sle at hb
  rw [BitVec.toInt_zero] at hb
  exact of_decide_eq_true hb

/-- A signed `w < 1024` that holds. -/
theorem lt_of_slt {w : BitVec 32} (h : IntOp.cmpi .slt w 1024#32 = 1#1) : w.toInt < 1024 := by
  have hb : w.slt 1024#32 = true := by
    cases hc : w.slt 1024#32 with
    | true => rfl
    | false =>
      have e : IntOp.cmpi .slt w 1024#32 = 0#1 := by
        show BitVec.ofBool (w.slt 1024#32) = 0#1
        rw [hc]; rfl
      rw [e] at h; exact absurd h (by decide)
  unfold BitVec.slt at hb
  have e : (1024#32 : BitVec 32).toInt = 1024 := by decide
  rw [e] at hb
  exact of_decide_eq_true hb

/-- Under the precondition every navigation index is in `[0, 1024)`. -/
theorem range_of_pre (x0 : IVec S64x1024 32) (x1 : FVec F S64x1024x3 .f32) (x2 : FVec F S64x1024x256 .f32)
    (x3 : FVec F S64x1024x3 .f32) (x4 : FVec F S256x256 .f32) (x5 : FVec F S256 .f32) (x6 : FVec F S4x256 .f32)
    (x7 : FVec F S256 .f32) (x8 : FVec F S256x256 .f32) (x9 : FVec F S256 .f32)
    (h : fn (F := F) x0 x1 x2 x3 x4 x5 x6 x7 x8 x9 = fun _ => 1#1) (i : S64x1024.Idx) :
    0 ≤ (x0 i).toInt ∧ (x0 i).toInt < 1024 := by
  have e := congrFun h ix0
  dsimp only [fn, fn_part1, fn_part2, fn_part3] at e
  obtain ⟨e1, e2⟩ := IntOp.andi_eq_one.mp e
  obtain ⟨-, e3⟩ := IntOp.andi_eq_one.mp e1
  have hlt := Host.reduce_andi_all _ _ _ _ ix0 e2 i
  have hge := Host.reduce_andi_all _ _ _ _ ix0 e3 i
  exact ⟨nonneg_of_sge hge, lt_of_slt hlt⟩

end Cert.PreRange

end
-- ==== Proof.lean ====
/-
  The certificate of kernel j52355651338944/3 against its reference, under the precondition that every float input is
  finite and every navigation index is a map token's number (`0 ≤ ag_navi < 1024`).

  The kernel gathers, for each agent, the feature row of the map token it navigates to (a one-hot matrix product over
  the scene's 1024 tokens), projects it by `W_mp`, and adds the projection by `W_pe` of the rectified pose embedding
  (four relative-pose features against `W_emb`); the reference does the same with a gather of rows and three
  `einsum`s.  At the extended reals both results are the one function `Cert.NaviSpec.G` of the argument arrays: a
  one-hot row selects one term of its sum (`0 · x = 0` for every extended real), a change of float format is the
  identity, and a matrix product is the plain sum over its contracted axis.  The pose features come from the same
  chain of host operations in both programs, applied by the kernel to the navigation indices clipped into the map's
  range; on indices already in range the clip, the reference's wrap of negative indices and the gather's clamp all do
  nothing.  Finiteness of the float inputs is not used.

  The three frames: each program runs to the end without a fault and leaves its arguments as launched (the kernel's
  two programs by the pipeline's launch theorem over the body's run, the reference by its run read back).
-/
import proofs.«405649_j52355651338944_3_alg».proof.Defs
import proofs.«405649_j52355651338944_3_alg».proof.Proof.Gen.Kernel
import proofs.«405649_j52355651338944_3_alg».proof.Proof.Gen.KernelIdeal
import proofs.«405649_j52355651338944_3_alg».proof.Proof.Gen.ReferenceIdeal
import proofs.«405649_j52355651338944_3_alg».proof.Proof.Gen.Pre_finite_inputs
import proofs.«405649_j52355651338944_3_alg».proof.Proof.Gen.ReferenceIdeal.Run
import proofs.«405649_j52355651338944_3_alg».proof.Proof.Gen.ReferenceIdeal.Read
import proofs.«405649_j52355651338944_3_alg».proof.Proof.FrameK
import proofs.«405649_j52355651338944_3_alg».proof.Proof.FrameKI
import proofs.«405649_j52355651338944_3_alg».proof.Proof.KernelValue
import proofs.«405649_j52355651338944_3_alg».proof.Proof.HostStage
import proofs.«405649_j52355651338944_3_alg».proof.Proof.RefSide
import proofs.«405649_j52355651338944_3_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both idealized programs end with the specification of the (agreeing) argument arrays. -/
theorem algebraic : Cert.algebraic_KernelIdeal_ReferenceIdeal := by
  intro m ρ m' ρ' hpre hagree
  have hr : ∀ c, Cert.KernelIdeal.KValue.InRange m c := fun c i =>
    Cert.PreRange.range_of_pre (F := Ideal) _ _ _ _ _ _ _ _ _ _ (hpre c) i
  refine ⟨fun c => Cert.KernelIdeal.KValue.result m c, Cert.KernelIdeal.KValue.run m ρ hr, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v76_eq, a0, a1, a2, a3, a4, a5, a6, a7, a8, a9]
  refine (Cert.RefSide.ref_is_G _ _ _ _ _ _ _ _ _ _ (hr c)).trans ?_
  show Cert.NaviSpec.G _ _ _ _ _ _ _ _ _ = Cert.NaviSpec.G _ _ _ _ _ _ _ _ _
  rw [Cert.KernelIdeal.HostStage.V_pe, Cert.KernelIdeal.HostStage.clip_of_range _ (hr c)]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
